-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v50 : IVec S600000 32) (main_c_18 : IVec S_ 32) : IVec S_ 1 :=
  let main_v51 : IVec S600000 32 := broadcastInDim S600000 ![] bcast_S_S600000 main_c_18
  let main_v52 : IVec S600000 1 := cmpi .sge main_v50 main_v51
  let main_v53 : IVec S1x600000 32 := (extractStridedSlice S1x600000 ![0, 0] · slices_S2x600000_S1x600000_0_0) main_arg1
  let main_v54 : IVec S600000 32 := shapeCast S600000 main_v53 shapeCasts_S1x600000_S600000
  let main_c_19 : IVec S_ 32 := constantI S_ 32 50000#32
  let main_v55 : IVec S600000 32 := broadcastInDim S600000 ![] bcast_S_S600000 main_c_19
  let main_v56 : IVec S600000 1 := cmpi .slt main_v54 main_v55
  let main_v57 : IVec S600000 1 := andi main_v52 main_v56
  let main_c_20 : IVec S_ 1 := constantI S_ 1 1#1
  let main_v58 : IVec S_ 1 := (fun x v => Host.reduce IntOp.andi x v reducesTo_S600000_S_d0 h_S_) main_v57 main_c_20
  let main_v59 : IVec S_ 1 := andi main_v48 main_v58
  main_v59

def fn_part2 {F : FTy → Type} [FloatOps F] (main_arg1 : IVec S2x600000 32) (main_arg8 : FVec F S32 .f32) (main_arg9 : FVec F S32x16 .f32) (main_arg10 : FVec F S16 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : IVec S1x600000 32 := (extractStridedSlice S1x600000 ![0, 0] · slices_S2x600000_S1x600000_0_0) main_arg1
  let main_v50 : IVec S600000 32 := shapeCast S600000 main_v49 shapeCasts_S1x600000_S600000
  let main_c_18 : IVec S_ 32 := constantI S_ 32 4294917296#32
  fn_part3 (F := F) main_arg1 main_v48 main_v50 main_c_18

def fn_part1 {F : FTy → Type} [FloatOps F] (main_arg1 : IVec S2x600000 32) (main_arg5 : FVec F S128x128 .f32) (main_arg6 : FVec F S128 .f32) (main_arg7 : FVec F S128x32 .f32) (main_arg8 : FVec F S32 .f32) (main_arg9 : FVec F S32x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x600000 32) (main_arg2 : FVec F S600000x64 .f32) (main_arg3 : FVec F S64x128 .f32) (main_arg4 : FVec F S128 .f32) (main_arg5 : FVec F S128x128 .f32) (main_arg6 : FVec F S128 .f32) (main_arg7 : FVec F S128x32 .f32) (main_arg8 : FVec F S32 .f32) (main_arg9 : FVec F S32x16 .f32) (main_arg10 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x600000 : Shape := ⟨2, ![1, 600000]⟩
abbrev S600000 : Shape := ⟨1, ![600000]⟩
abbrev S1x128 : Shape := ⟨2, ![1, 128]⟩
abbrev S600000x128 : Shape := ⟨2, ![600000, 128]⟩
abbrev S10000x64 : Shape := ⟨2, ![10000, 64]⟩
abbrev S10000x128 : Shape := ⟨2, ![10000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S5000x128 : Shape := ⟨2, ![5000, 128]⟩
abbrev S1x32 : Shape := ⟨2, ![1, 32]⟩
abbrev S1x16 : Shape := ⟨2, ![1, 16]⟩
abbrev S50000x16 : Shape := ⟨2, ![50000, 16]⟩
abbrev S5000x16 : Shape := ⟨2, ![5000, 16]⟩
abbrev S5000x32 : Shape := ⟨2, ![5000, 32]⟩

abbrev nBuf : Space → Nat
  | .hbm => 118
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S1x128, .f32⟩
  | .hbm, ⟨16, _⟩ => ⟨S600000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S1, .i32⟩
  | .hbm, ⟨26, _⟩ => ⟨S_, .i32⟩
  | .hbm, ⟨27, _⟩ => ⟨S600000x1, .i32⟩
  | .hbm, ⟨28, _⟩ => ⟨S600000x1, .i1⟩
  | .hbm, ⟨29, _⟩ => ⟨S1x1, .i32⟩
  | .hbm, ⟨30, _⟩ => ⟨S600000x1, .i32⟩
  | .hbm, ⟨31, _⟩ => ⟨S600000x1, .i1⟩
  | .hbm, ⟨32, _⟩ => ⟨S600000x1, .i1⟩
  | .hbm, ⟨33, _⟩ => ⟨S_, .i1⟩
  | .hbm, ⟨34, _⟩ => ⟨S600000, .i1⟩
  | .hbm, ⟨35, _⟩ => ⟨S600000x128, .f32⟩
  | .hbm, ⟨36, _⟩ => ⟨S600000x128, .i1⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S1, .i32⟩
  | .hbm, ⟨59, _⟩ => ⟨S_, .i32⟩
  | .hbm, ⟨60, _⟩ => ⟨S600000x1, .i32⟩
  | .hbm, ⟨61, _⟩ => ⟨S600000x1, .i1⟩
  | .hbm, ⟨62, _⟩ => ⟨S1x1, .i32⟩
  | .hbm, ⟨63, _⟩ => ⟨S600000x1, .i32⟩
  | .hbm, ⟨64, _⟩ => ⟨S600000x1, .i1⟩
  | .hbm, ⟨65, _⟩ => ⟨S600000x1, .i1⟩
  | .hbm, ⟨66, _⟩ => ⟨S_, .i1⟩
  | .hbm, ⟨67, _⟩ => ⟨S600000, .i1⟩
  | .hbm, ⟨68, _⟩ => ⟨S600000x128, .f32⟩
  | .hbm, ⟨69, _⟩ => ⟨S600000x128, .i1⟩
  | .hbm, ⟨70, _⟩ => ⟨S_, .f32⟩
  | .hbm, ⟨71, _⟩ => ⟨S600000x128, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S1, .i32⟩
  | .hbm, ⟨92, _⟩ => ⟨S_, .i32⟩
  | .hbm, ⟨93, _⟩ => ⟨S600000x1, .i32⟩
  | .hbm, ⟨94, _⟩ => ⟨S600000x1, .i1⟩
  | .hbm, ⟨95, _⟩ => ⟨S1x1, .i32⟩
  | .hbm, ⟨96, _⟩ => ⟨S600000x1, .i32⟩
  | .hbm, ⟨97, _⟩ => ⟨S600000x1, .i1⟩
  | .hbm, ⟨98, _⟩ => ⟨S600000x1, .i1⟩
  | .hbm, ⟨99, _⟩ => ⟨S_, .i1⟩
  | .hbm, ⟨100, _⟩ => ⟨S600000, .i1⟩
  | .hbm, ⟨101, _⟩ => ⟨S600000x128, .f32⟩
  | .hbm, ⟨102, _⟩ => ⟨S600000x128, .i1⟩
  | .hbm, ⟨103, _⟩ => ⟨S_, .f32⟩
  | .hbm, ⟨104, _⟩ => ⟨S600000x128, .f32⟩
  | .hbm, ⟨105, _⟩ => ⟨S600000x128, .f32⟩
  | .hbm, ⟨106, _⟩ => ⟨S600000x128, .f32⟩
  | .hbm, ⟨107, _⟩ => ⟨S_, .f32⟩
  | .hbm, ⟨108, _⟩ => ⟨S600000x128, .f32⟩
  | .hbm, ⟨109, _⟩ => ⟨S600000x128, .f32⟩
  | .hbm, ⟨110, _⟩ => ⟨S_, .f32⟩
  | .hbm, ⟨111, _⟩ => ⟨S50000x128, .f32⟩
  | .hbm, ⟨112, _⟩ => ⟨S600000x1, .i32⟩
  | .hbm, ⟨113, _⟩ => ⟨S50000x128, .f32⟩
  | .hbm, ⟨114, _⟩ => ⟨S1x128, .f32⟩
  | .hbm, ⟨115, _⟩ => ⟨S1x32, .f32⟩
  | .hbm, ⟨116, _⟩ => ⟨S1x16, .f32⟩
  | .hbm, ⟨117, _⟩ => ⟨S50000x16, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x32, .f32⟩
  | .local _ .vmem, ⟨29, _⟩ => ⟨S1x32, .f32⟩
  | .local _ .vmem, ⟨30, _⟩ => ⟨S32x16, .f32⟩
  | .local _ .vmem, ⟨31, _⟩ => ⟨S1x16, .f32⟩
  | .local _ .vmem, ⟨32, _⟩ => ⟨S5000x16, .f32⟩
  | .local _ .vmem, ⟨33, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_call1_cst : Ref sig .tc := ⟨.hbm, 41, rfl⟩
abbrev main_call1_v0 : Ref sig .tc := ⟨.hbm, 42, rfl⟩
abbrev main_v8 : Ref sig .tc := ⟨.hbm, 43, rfl⟩
abbrev main_cst : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v14 : Ref sig .tc := ⟨.hbm, 72, rfl⟩
abbrev main_v15 : Ref sig .tc := ⟨.hbm, 73, rfl⟩
abbrev main_call3_cst : Ref sig .tc := ⟨.hbm, 74, rfl⟩
abbrev main_call3_v0 : Ref sig .tc := ⟨.hbm, 75, rfl⟩
abbrev main_v16 : Ref sig .tc := ⟨.hbm, 76, rfl⟩
abbrev main_cst_0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_c_1 : Ref sig .tc := ⟨.hbm, 91, rfl⟩
abbrev main_call4_c_2 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_3 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_call4_cst : Ref sig .tc := ⟨.hbm, 103, rfl⟩
abbrev main_call4_v15 : Ref sig .tc := ⟨.hbm, 104, rfl⟩
abbrev main_v22 : Ref sig .tc := ⟨.hbm, 105, rfl⟩
abbrev main_v23 : Ref sig .tc := ⟨.hbm, 106, rfl⟩
abbrev main_call5_cst : Ref sig .tc := ⟨.hbm, 107, rfl⟩
abbrev main_call5_v0 : Ref sig .tc := ⟨.hbm, 108, rfl⟩
abbrev main_v24 : Ref sig .tc := ⟨.hbm, 109, rfl⟩
abbrev main_cst_1 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x16 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  shapeCasts_S32_S1x32 : S32.ShapeCasts S1x32
  shapeCasts_S16_S1x16 : S16.ShapeCasts S1x16
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S10000x64_S64x128_S10000x128_1_0_0_1_n_n_wf : DotDims.WF S10000x64 S64x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S600000x64.size a
  hwx0_0 : ∀ i : grid0.Coords, EltTy.bits .f32 = 32 ∨ (Rect.block (s := S600000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S600000x128.size a
  hwx0_3 : ∀ i : grid0.Coords, EltTy.bits .f32 = 32 ∨ (Rect.block (s := S600000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x32.size a ≤ S128x32.size a
  hwx3_4 : ∀ i : grid3.Coords, EltTy.bits .f32 = 32 ∨ (Rect.block (s := S128x32) S128x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32x16.size a ≤ S32x16.size a
  hwx3_6 : ∀ i : grid3.Coords, EltTy.bits .f32 = 32 ∨ (Rect.block (s := S32x16) S32x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x16.size a ≤ S1x16.size a
  hwx3_7 : ∀ i : grid3.Coords, EltTy.bits .f32 = 32 ∨ (Rect.block (s := S1x16) S1x16.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x16.size a ≤ S50000x16.size a
  hwx3_8 : ∀ i : grid3.Coords, EltTy.bits .f32 = 32 ∨ (Rect.block (s := S50000x16) S5000x16.size (cc3_transform_8 i) (hinb3_8 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S128x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S32x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v30) S1x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v31) S5000x16.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S50000x32 : Shape := ⟨2, ![50000, 32]⟩
abbrev S1x32 : Shape := ⟨2, ![1, 32]⟩
abbrev S50000x16 : Shape := ⟨2, ![50000, 16]⟩
abbrev S1x16 : Shape := ⟨2, ![1, 16]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S600000x128, .f32⟩
  | .hbm, ⟨16, _⟩ => ⟨S1x128, .f32⟩
  | .hbm, ⟨17, _⟩ => ⟨S600000x128, .f32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S600000x128, .f32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x32, .f32⟩
  | .hbm, ⟨92, _⟩ => ⟨S1x32, .f32⟩
  | .hbm, ⟨93, _⟩ => ⟨S50000x32, .f32⟩
  | .hbm, ⟨94, _⟩ => ⟨S50000x32, .f32⟩
  | .hbm, ⟨95, _⟩ => ⟨S_, .f32⟩
  | .hbm, ⟨96, _⟩ => ⟨S50000x32, .f32⟩
  | .hbm, ⟨97, _⟩ => ⟨S50000x32, .f32⟩
  | .hbm, ⟨98, _⟩ => ⟨S50000x16, .f32⟩
  | .hbm, ⟨99, _⟩ => ⟨S1x16, .f32⟩
  | .hbm, ⟨100, _⟩ => ⟨S50000x16, .f32⟩
  | .hbm, ⟨101, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_cst : Ref sig .tc := ⟨.hbm, 54, rfl⟩
abbrev main_call2_v0 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call3_cst : Ref sig .tc := ⟨.hbm, 66, rfl⟩
abbrev main_call3_v0 : Ref sig .tc := ⟨.hbm, 67, rfl⟩
abbrev main_v43 : Ref sig .tc := ⟨.hbm, 68, rfl⟩
abbrev main_c_4 : Ref sig .tc := ⟨.hbm, 69, rfl⟩
abbrev main_v44 : Ref sig .tc := ⟨.hbm, 70, rfl⟩
abbrev main_v45 : Ref sig .tc := ⟨.hbm, 71, rfl⟩
abbrev main_c_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call4_cst : Ref sig .tc := ⟨.hbm, 79, rfl⟩
abbrev main_call4_v0 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call5_cst : Ref sig .tc := ⟨.hbm, 95, rfl⟩
abbrev main_call5_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S600000x64_S64x128_S600000x128_1_0_0_1_n_n_wf : DotDims.WF S600000x64 S64x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []
  dot_S50000x32_S32x16_S50000x16_1_0_0_1_n_n_wf : DotDims.WF S50000x32 S32x16 S50000x16 [1] [0] [0] [1] [] []

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf

class Facts : Prop extends Facts₀ where

variable [Facts]
-- ==== Proof.Model.lean ====
/-
  The network both programs compute, written once as whole-array functions in the vocabulary of the
  reference's host operations, at any float instance.

  A layer of the graph network takes the node features x : [50000, 128], the edge list (a row of
  sources and a row of targets, 600000 edges), and the projected edge features e : [600000, 128]:
    aggr i   =  sum over the edges k with target i of  relu (x (source k) + e k)
    layer x  =  (x + aggr) · W + b            (the bias b as one row [1, 128] spread down the rows)
  Three layers (relu after the first two), then a two-stage classifier
    out = relu (x₃ · W₁ + b₁) · W₂ + b₂.
  The projected edge features are e = edge_attr · Wₑ + bₑ, the same for every layer.
  A negative source index s is read as s + 50000 (the wrap jnp applies) before the row is taken.
-/
import proofs.«416361_j39393440039361_2_alg».proof.Proof.Gen.ReferenceIdeal

noncomputable section

namespace Cert.Model

open Idealize.ShloMosaic Cert.ReferenceIdeal Cert.ReferenceIdeal.Gen

variable {F : FTy → Type} [FloatOps F]

/-- The edge list's row of sources, as a vector of 600000 words. -/
def srcRow (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The edge list's row of targets. -/
def dstRow (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A negative index counts from the end: s ↦ s + 50000 where s < 0. -/
def wrap (s : (⟨S600000, .i32⟩ : BufTy).Contents (Elt F)) : (⟨S600000, .i32⟩ : BufTy).Contents (Elt F) :=
  select (cmpi .slt s (broadcastInDim S600000 ![] bcast_S_S600000 (constantI S_ 32 0#32)))
    (addi s (broadcastInDim S600000 ![] bcast_S_S600000 (constantI S_ 32 50000#32))) s

/-- A vector of indices as a column of one-word index vectors. -/
def col (s : (⟨S600000, .i32⟩ : BufTy).Contents (Elt F)) : (⟨S600000x1, .i32⟩ : BufTy).Contents (Elt F) :=
  broadcastInDim S600000x1 ![0] bcast_S600000_S600000x1_0 s

/-- Row k of the result is row (s k) of x. -/
def takeRows (x : (⟨S50000x128, .f32⟩ : BufTy).Contents (Elt F)) (s : (⟨S600000, .i32⟩ : BufTy).Contents (Elt F)) :
    (⟨S600000x128, .f32⟩ : BufTy).Contents (Elt F) :=
  Host.gather gather_S50000x128_S600000x1_S600000x128_1_0_n_n_0_1_1128 x (col s)

/-- relu (xsrc + e), each edge's row added into the row of its target, from zero. -/
def sumMsgs (d : (⟨S600000, .i32⟩ : BufTy).Contents (Elt F))
    (xsrc e : (⟨S600000x128, .f32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32)) (col d)
    (maximumf (addf xsrc e) (broadcastInDim S600000x128 ![] bcast_S_S600000x128 (constant S_ .f32 0x00000000#32)))

/-- The aggregated messages of one layer. -/
def aggregate (x : (⟨S50000x128, .f32⟩ : BufTy).Contents (Elt F)) (ei : (⟨S2x600000, .i32⟩ : BufTy).Contents (Elt F))
    (e : (⟨S600000x128, .f32⟩ : BufTy).Contents (Elt F)) : (⟨S50000x128, .f32⟩ : BufTy).Contents (Elt F) :=
  sumMsgs (dstRow ei) (takeRows x (wrap (srcRow ei))) e

/-- edge_attr · Wₑ + bₑ, the bias given as one row. -/
def edgeLin (ea : (⟨S600000x64, .f32⟩ : BufTy).Contents (Elt F)) (w : (⟨S64x128, .f32⟩ : BufTy).Contents (Elt F))
    (brow : (⟨S1x128, .f32⟩ : BufTy).Contents (Elt F)) : (⟨S600000x128, .f32⟩ : BufTy).Contents (Elt F) :=
  addf (Host.dotGeneral dot_S600000x64_S64x128_S600000x128_1_0_0_1_n_n none ea w)
    (broadcastInDim S600000x128 ![0, 1] bcast_S1x128_S600000x128_0_1 brow)

/-- (x + aggr) · W + b, the bias given as one row. -/
def nodeLin (x aggr : (⟨S50000x128, .f32⟩ : BufTy).Contents (Elt F)) (w : (⟨S128x128, .f32⟩ : BufTy).Contents (Elt F))
    (brow : (⟨S1x128, .f32⟩ : BufTy).Contents (Elt F)) : (⟨S50000x128, .f32⟩ : BufTy).Contents (Elt F) :=
  addf (Host.dotGeneral dot_S50000x128_S128x128_S50000x128_1_0_0_1_n_n none (addf x aggr) w)
    (broadcastInDim S50000x128 ![0, 1] bcast_S1x128_S50000x128_0_1 brow)

/-- relu on node features. -/
def reluN (y : (⟨S50000x128, .f32⟩ : BufTy).Contents (Elt F)) : (⟨S50000x128, .f32⟩ : BufTy).Contents (Elt F) :=
  maximumf y (broadcastInDim S50000x128 ![] bcast_S_S50000x128 (constant S_ .f32 0x00000000#32))

/-- relu (x · W₁ + b₁) · W₂ + b₂, the biases given as rows. -/
def classify (x : (⟨S50000x128, .f32⟩ : BufTy).Contents (Elt F)) (w1 : (⟨S128x32, .f32⟩ : BufTy).Contents (Elt F))
    (b1row : (⟨S1x32, .f32⟩ : BufTy).Contents (Elt F)) (w2 : (⟨S32x16, .f32⟩ : BufTy).Contents (Elt F))
    (b2row : (⟨S1x16, .f32⟩ : BufTy).Contents (Elt F)) : (⟨S50000x16, .f32⟩ : BufTy).Contents (Elt F) :=
  addf (Host.dotGeneral dot_S50000x32_S32x16_S50000x16_1_0_0_1_n_n none
      (maximumf (addf (Host.dotGeneral dot_S50000x128_S128x32_S50000x32_1_0_0_1_n_n none x w1)
          (broadcastInDim S50000x32 ![0, 1] bcast_S1x32_S50000x32_0_1 b1row))
        (broadcastInDim S50000x32 ![] bcast_S_S50000x32 (constant S_ .f32 0x00000000#32))) w2)
    (broadcastInDim S50000x16 ![0, 1] bcast_S1x16_S50000x16_0_1 b2row)

/-- A bias vector as one row. -/
def row128 (b : (⟨S128, .f32⟩ : BufTy).Contents (Elt F)) : (⟨S1x128, .f32⟩ : BufTy).Contents (Elt F) :=
  broadcastInDim S1x128 ![1] bcast_S128_S1x128_1 b
def row32 (b : (⟨S32, .f32⟩ : BufTy).Contents (Elt F)) : (⟨S1x32, .f32⟩ : BufTy).Contents (Elt F) :=
  broadcastInDim S1x32 ![1] bcast_S32_S1x32_1 b
def row16 (b : (⟨S16, .f32⟩ : BufTy).Contents (Elt F)) : (⟨S1x16, .f32⟩ : BufTy).Contents (Elt F) :=
  broadcastInDim S1x16 ![1] bcast_S16_S1x16_1 b

/-- One layer without its relu: (x + aggregate x) · W + b. -/
def layer (x : (⟨S50000x128, .f32⟩ : BufTy).Contents (Elt F)) (ei : (⟨S2x600000, .i32⟩ : BufTy).Contents (Elt F))
    (e : (⟨S600000x128, .f32⟩ : BufTy).Contents (Elt F)) (w : (⟨S128x128, .f32⟩ : BufTy).Contents (Elt F))
    (brow : (⟨S1x128, .f32⟩ : BufTy).Contents (Elt F)) : (⟨S50000x128, .f32⟩ : BufTy).Contents (Elt F) :=
  nodeLin x (aggregate x ei e) w brow

/-- The whole network. -/
def net (x : (⟨S50000x128, .f32⟩ : BufTy).Contents (Elt F)) (ei : (⟨S2x600000, .i32⟩ : BufTy).Contents (Elt F))
    (ea : (⟨S600000x64, .f32⟩ : BufTy).Contents (Elt F)) (we : (⟨S64x128, .f32⟩ : BufTy).Contents (Elt F))
    (be : (⟨S128, .f32⟩ : BufTy).Contents (Elt F)) (w : (⟨S128x128, .f32⟩ : BufTy).Contents (Elt F))
    (b : (⟨S128, .f32⟩ : BufTy).Contents (Elt F)) (w1 : (⟨S128x32, .f32⟩ : BufTy).Contents (Elt F))
    (b1 : (⟨S32, .f32⟩ : BufTy).Contents (Elt F)) (w2 : (⟨S32x16, .f32⟩ : BufTy).Contents (Elt F))
    (b2 : (⟨S16, .f32⟩ : BufTy).Contents (Elt F)) : (⟨S50000x16, .f32⟩ : BufTy).Contents (Elt F) :=
  classify
    (layer (reluN (layer (reluN (layer x ei (edgeLin ea we (row128 be)) w (row128 b))) ei (edgeLin ea we (row128 be)) w (row128 b)))
      ei (edgeLin ea we (row128 be)) w (row128 b))
    w1 (row32 b1) w2 (row16 b2)

end Cert.Model

end
-- ==== Proof.DotRead.lean ====
/-
  The host's matrix products of this network read at an index, at the exact instance: entry (i, j) of
  l · r is the sum over k of l (i, k) · r (k, j), for each of the four products' shapes.
-/
import proofs.«416361_j39393440039361_2_alg».proof.Proof.Gen.ReferenceIdeal.Read
import Idealize.ShloMosaic.Lib.ValueIdx
import Idealize.ShloMosaic.PureOps.Ideal.Laws

noncomputable section

namespace Cert.DotRead

open Idealize.ShloMosaic Cert.ReferenceIdeal Cert.ReferenceIdeal.Gen Cert.ReferenceIdeal.Read

/-- [600000, 64] · [64, 128]. -/
theorem dot_edge (l : FVec Ideal S600000x64 .f32) (r : FVec Ideal S64x128 .f32) (i : S600000x128.Idx) :
    Host.dotGeneral (F := Ideal) dot_S600000x64_S64x128_S600000x128_1_0_0_1_n_n none l r i
      = ∑ k : Fin 64, l (lidx_main_v4 i k) * r (ridx_main_v4 i k) :=
  val_main_v4_apply l r i

/-- [50000, 128] · [128, 128]. -/
theorem dot_node (l : FVec Ideal S50000x128 .f32) (r : FVec Ideal S128x128 .f32) (i : S50000x128.Idx) :
    Host.dotGeneral (F := Ideal) dot_S50000x128_S128x128_S50000x128_1_0_0_1_n_n none l r i
      = ∑ k : Fin 128, l (lidx_main_v21 i k) * r (ridx_main_v21 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v21 i k := funext fun a => Fin.ext (by
    match a with
    | ⟨0, _⟩ => exact lhs_main_v21_0 _ _
    | ⟨1, _⟩ => exact (lhs_main_v21_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v21 i k := funext fun a => Fin.ext (by
    match a with
    | ⟨0, _⟩ => exact (rhs_main_v21_0 _ _).trans hk
    | ⟨1, _⟩ => exact rhs_main_v21_1 _ _)
  rw [el, er]

/-- [50000, 128] · [128, 32]. -/
theorem dot_hidden (l : FVec Ideal S50000x128 .f32) (r : FVec Ideal S128x32 .f32) (i : S50000x32.Idx) :
    Host.dotGeneral (F := Ideal) dot_S50000x128_S128x32_S50000x32_1_0_0_1_n_n none l r i
      = ∑ k : Fin 128, l (lidx_main_v61 i k) * r (ridx_main_v61 i k) := by
  simp only [Host.dotGeneral]
  rw [Ideal.dotGeneral_apply, ← Equiv.sum_comp (ValueIdx.contrEquiv1 dot_S50000x128_S128x32_S50000x32_1_0_0_1_n_n 128 rfl rfl).symm]
  refine Finset.sum_congr rfl fun k _ => ?_
  have hk := ValueIdx.contrEquiv1_symm_val dot_S50000x128_S128x32_S50000x32_1_0_0_1_n_n 128 rfl rfl k
  have el : dot_S50000x128_S128x32_S50000x32_1_0_0_1_n_n.lhsIdx i ((ValueIdx.contrEquiv1 dot_S50000x128_S128x32_S50000x32_1_0_0_1_n_n 128 rfl rfl).symm k) = lidx_main_v61 i k := funext fun a => Fin.ext (by
    match a with
    | ⟨0, _⟩ => exact lhs_main_v61_0 _ _
    | ⟨1, _⟩ => exact (lhs_main_v61_1 _ _).trans hk)
  have er : dot_S50000x128_S128x32_S50000x32_1_0_0_1_n_n.rhsIdx i ((ValueIdx.contrEquiv1 dot_S50000x128_S128x32_S50000x32_1_0_0_1_n_n 128 rfl rfl).symm k) = ridx_main_v61 i k := funext fun a => Fin.ext (by
    match a with
    | ⟨0, _⟩ => exact (rhs_main_v61_0 _ _).trans hk
    | ⟨1, _⟩ => exact rhs_main_v61_1 _ _)
  rw [el, er]

/-- [50000, 32] · [32, 16]. -/
theorem dot_out (l : FVec Ideal S50000x32 .f32) (r : FVec Ideal S32x16 .f32) (i : S50000x16.Idx) :
    Host.dotGeneral (F := Ideal) dot_S50000x32_S32x16_S50000x16_1_0_0_1_n_n none l r i
      = ∑ k : Fin 32, l (lidx_main_v66 i k) * r (ridx_main_v66 i k) := by
  simp only [Host.dotGeneral]
  rw [Ideal.dotGeneral_apply, ← Equiv.sum_comp (ValueIdx.contrEquiv1 dot_S50000x32_S32x16_S50000x16_1_0_0_1_n_n 32 rfl rfl).symm]
  refine Finset.sum_congr rfl fun k _ => ?_
  have hk := ValueIdx.contrEquiv1_symm_val dot_S50000x32_S32x16_S50000x16_1_0_0_1_n_n 32 rfl rfl k
  have el : dot_S50000x32_S32x16_S50000x16_1_0_0_1_n_n.lhsIdx i ((ValueIdx.contrEquiv1 dot_S50000x32_S32x16_S50000x16_1_0_0_1_n_n 32 rfl rfl).symm k) = lidx_main_v66 i k := funext fun a => Fin.ext (by
    match a with
    | ⟨0, _⟩ => exact lhs_main_v66_0 _ _
    | ⟨1, _⟩ => exact (lhs_main_v66_1 _ _).trans hk)
  have er : dot_S50000x32_S32x16_S50000x16_1_0_0_1_n_n.rhsIdx i ((ValueIdx.contrEquiv1 dot_S50000x32_S32x16_S50000x16_1_0_0_1_n_n 32 rfl rfl).symm k) = ridx_main_v66 i k := funext fun a => Fin.ext (by
    match a with
    | ⟨0, _⟩ => exact (rhs_main_v66_0 _ _).trans hk
    | ⟨1, _⟩ => exact rhs_main_v66_1 _ _)
  rw [el, er]

end Cert.DotRead

end
-- ==== Proof.Region0.lean ====
/-
  The edge projection's launch: 60 grid points, point t computing rows 10000·t … 10000·t + 9999 of
  edge_attr · Wₑ + bₑ from the same rows of edge_attr, all of Wₑ and the bias row. Whatever the arrays hold
  when the launch is entered, the output array ends at the whole-array function `Cert.Model.edgeLin` of them.
-/
import proofs.«416361_j39393440039361_2_alg».proof.Proof.Gen.KernelIdeal.Frame
import proofs.«416361_j39393440039361_2_alg».proof.Proof.Model
import proofs.«416361_j39393440039361_2_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem
open Cert.KernelIdeal Cert.KernelIdeal.Gen

/-- The zero offsets of a whole-buffer access, as the constant function. -/
theorem hz : (![0, 0] : Fin 2 → Nat) = fun _ => 0 := funext fun a => by fin_cases a <;> rfl

/-! ## The block product's operand indices: entry (p, q) reads row p of the left block and column q of the weight -/

theorem lhs_axis0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_axis1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_axis0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_axis1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The block product into a zero accumulator, at entry (p, q): the sum over k of x (p, k) · w (k, q). -/
theorem blockDot_apply (x : FVec Ideal S10000x64 .bf16) (w : FVec Ideal S64x128 .bf16) (p : Fin 10000) (q : Fin 128) :
    matmul (F := Ideal) dot_S10000x64_S64x128_S10000x128_1_0_0_1_n_n none x w (constant S10000x128 .f32 0x00000000#32) (ValueIdx.ix2 p q)
      = ∑ k : Fin 64, x (ValueIdx.ix2 p k) * w (ValueIdx.ix2 k q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ValueIdx.ix2 p q) ((ValueIdx.contrEquiv1 dot_S10000x64_S64x128_S10000x128_1_0_0_1_n_n 64 rfl rfl).symm k) = ValueIdx.ix2 p k := funext fun a => Fin.ext (by
    match a with
    | ⟨0, _⟩ => exact lhs_axis0 _ _
    | ⟨1, _⟩ => exact (lhs_axis1 _ _).trans hk)
  have er : dot_S10000x64_S64x128_S10000x128_1_0_0_1_n_n.rhsIdx (ValueIdx.ix2 p q) ((ValueIdx.contrEquiv1 dot_S10000x64_S64x128_S10000x128_1_0_0_1_n_n 64 rfl rfl).symm k) = ValueIdx.ix2 k q := funext fun a => Fin.ext (by
    match a with
    | ⟨0, _⟩ => exact (rhs_axis0 _ _).trans hk
    | ⟨1, _⟩ => exact rhs_axis1 _ _)
  rw [el, er]

/-- The bias row spread down the block's rows, at entry (p, q): the row's entry q. -/
theorem biasRows_apply (b : FVec Ideal S1x128 .f32) (p : Fin 10000) (q : Fin 128) :
    broadcastTo S10000x128 (shapeCast S1x128 b shapeCasts_S1x128_S1x128) broadcasts_S1x128_S10000x128 (ValueIdx.ix2 p q)
      = b (ValueIdx.ix2 (0 : Fin 1) q) := by
  rw [shapeCast_self]
  exact broadcastTo_apply b broadcasts_S1x128_S10000x128 (ValueIdx.ix2 p q) (ValueIdx.ix2 (0 : Fin 1) q) (fun a => match a with
    | ⟨0, _⟩ => by show 0 = if (1 : Nat) = 1 then 0 else _; rw [if_pos rfl]
    | ⟨1, _⟩ => by show q.val = if (128 : Nat) = 1 then 0 else _; rw [if_neg (by decide)]; rfl)

/-- THE BODY'S ARITHMETIC AT AN ENTRY: (x · w) (p, q) + b (0, q), the changes of float format being the identity on
    extended reals. -/
theorem pay_apply (x0 : Vec Ideal S10000x64 .f32) (x1 : Vec Ideal S64x128 .f32) (x2 : Vec Ideal S1x128 .f32) (p : Fin 10000) (q : Fin 128) :
    k0_pay1 (F := Ideal) x0 x1 x2 (ValueIdx.ix2 p q)
      = (∑ k : Fin 64, x0 (ValueIdx.ix2 p k) * x1 (ValueIdx.ix2 k q)) + x2 (ValueIdx.ix2 (0 : Fin 1) q) := by
  unfold k0_pay1
  refine (ValueIdx.addf_apply _ _ _).trans ?_
  refine congrArg₂ (· + ·) ?_ ?_
  · exact blockDot_apply (truncf .bf16 x0 bitsLt_bf16_f32) (truncf .bf16 x1 bitsLt_bf16_f32) p q
  · exact biasRows_apply x2 p q

/-! ## The whole-array function at an entry -/

/-- edge_attr · Wₑ + bₑ at entry (r, q): the sum over k of ea (r, k) · w (k, q), plus the bias row's entry q. -/
theorem model_apply (ea : FVec Ideal S600000x64 .f32) (w : FVec Ideal S64x128 .f32) (b : FVec Ideal S1x128 .f32) (r : Fin 600000) (q : Fin 128) :
    Cert.Model.edgeLin (F := Ideal) ea w b (ValueIdx.ix2 r q)
      = (∑ k : Fin 64, ea (ValueIdx.ix2 r k) * w (ValueIdx.ix2 k q)) + b (ValueIdx.ix2 (0 : Fin 1) q) := by
  unfold Cert.Model.edgeLin
  refine (ValueIdx.addf_apply _ _ _).trans ?_
  refine congrArg₂ (· + ·) ?_ ?_
  · refine (Cert.DotRead.dot_edge ea w (ValueIdx.ix2 r q)).trans ?_
    refine Finset.sum_congr rfl fun k _ => ?_
    have el : Cert.ReferenceIdeal.Read.lidx_main_v4 (ValueIdx.ix2 r q) k = ValueIdx.ix2 r k := funext fun a => by
      match a with
      | ⟨0, _⟩ => rfl
      | ⟨1, _⟩ => rfl
    have er : Cert.ReferenceIdeal.Read.ridx_main_v4 (ValueIdx.ix2 r q) k = ValueIdx.ix2 k q := funext fun a => by
      match a with
      | ⟨0, _⟩ => rfl
      | ⟨1, _⟩ => rfl
    rw [el, er]
  · exact broadcastInDim_apply _ Cert.ReferenceIdeal.Facts₀.bcast_S1x128_S600000x128_0_1 b (ValueIdx.ix2 r q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else _; rw [if_neg (by decide)]; rfl)

/-! ## One grid point: the body's result on rows' blocks is the same rows of the whole-array function -/

/-- If the left block is rows n·10000 … of ea (h0), and the weight and bias blocks are the whole small arrays (h1, h2), the
    body's result at (p, q) is edge_attr · Wₑ + bₑ at (n·10000 + p, q): the two are the same sum of products plus the
    same bias entry. -/
theorem point_apply (ea : FVec Ideal S600000x64 .f32) (w : FVec Ideal S64x128 .f32) (b : FVec Ideal S1x128 .f32)
    (x0 : Vec Ideal S10000x64 .f32) (x1 : Vec Ideal S64x128 .f32) (x2 : Vec Ideal S1x128 .f32)
    (p : Fin 10000) (q : Fin 128) (r : Fin 600000)
    (h0 : ∀ k : Fin 64, x0 (ValueIdx.ix2 p k) = ea (ValueIdx.ix2 r k))
    (h1 : ∀ k : Fin 64, x1 (ValueIdx.ix2 k q) = w (ValueIdx.ix2 k q))
    (h2 : x2 (ValueIdx.ix2 (0 : Fin 1) q) = b (ValueIdx.ix2 (0 : Fin 1) q)) :
    k0_pay1 (F := Ideal) x0 x1 x2 (ValueIdx.ix2 p q) = Cert.Model.edgeLin (F := Ideal) ea w b (ValueIdx.ix2 r q) := by
  rw [pay_apply, model_apply, h2]
  refine congrArg (· + b (ValueIdx.ix2 (0 : Fin 1) q)) ?_
  exact Finset.sum_congr rfl fun k _ => by rw [h0 k, h1 k]

/-! ## From blocks to the array -/

/-- The windows' index maps at each of the grid's 60 points: the edge rows' window and the output's are at block
    (t, 0); the weight's and the bias row's are at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of edge_attr · Wₑ + bₑ of the three arrays as the launch finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Model.edgeLin (F := Ideal) (V c main_arg2) (V c main_arg3) (V c main_v4)) := by
  show (cfg0.win 3).cut (grid0.coords t) ((dat0 (F := Ideal) V c).after 3 t) = _
  rw [after0_3]
  unfold out0_3
  rw [View.canon_unit_zero hz]
  simp only [View.ld_unit_zero (S := S10000x64) hz, View.ld_unit_zero (S := S64x128) hz, View.ld_unit_zero (S := S1x128) hz]
  obtain ⟨e00, e01, e10, e11, e20, e21, e30, e31⟩ := idx_facts t
  have ht : t.val < 60 := lt_of_lt_of_eq t.isLt N_0
  funext j
  have hp : (j 0).val < 10000 := (j 0).isLt
  have hq : (j 1).val < 128 := (j 1).isLt
  have hr : t.val * 10000 + (j 0).val < 600000 := by omega
  show k0_pay1 (F := Ideal) (iblk0 V c 0 t) (iblk0 V c 1 t) (iblk0 V c 2 t) ((cfg0.win 3).xinj (grid0.coords t) j)
    = Cert.Model.edgeLin (F := Ideal) (V c main_arg2) (V c main_arg3) (V c main_v4) (((cfg0.win 3).blk t).view.emb j)
  have eL : (cfg0.win 3).xinj (grid0.coords t) j = ValueIdx.ix2 (⟨(j 0).val, hp⟩ : Fin 10000) (⟨(j 1).val, hq⟩ : Fin 128) := funext fun a => by
    match a with
    | ⟨0, _⟩ => rfl
    | ⟨1, _⟩ => rfl
  have eR : ((cfg0.win 3).blk t).view.emb j = ValueIdx.ix2 (⟨t.val * 10000 + (j 0).val, hr⟩ : Fin 600000) (⟨(j 1).val, hq⟩ : Fin 128) := funext fun a => Fin.ext (by
    match a with
    | ⟨0, _⟩ => show win0_3.index t (0 : Fin 2) * 10000 + 1 * (j 0).val = t.val * 10000 + (j 0).val; omega
    | ⟨1, _⟩ => show win0_3.index t (1 : Fin 2) * 128 + 1 * (j 1).val = (j 1).val; omega)
  rw [eL, eR]
  refine point_apply (V c main_arg2) (V c main_arg3) (V c main_v4) (iblk0 V c 0 t) (iblk0 V c 1 t) (iblk0 V c 2 t)
    ⟨(j 0).val, hp⟩ ⟨(j 1).val, hq⟩ ⟨t.val * 10000 + (j 0).val, hr⟩ ?_ ?_ ?_
  · intro k
    show V c main_arg2 (((cfg0.win 0).blk t).view.emb (ValueIdx.ix2 (⟨(j 0).val, hp⟩ : Fin 10000) k)) = V c main_arg2 _
    refine congrArg (V c main_arg2) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 64 + 1 * k.val = k.val; omega
  · intro k
    show V c main_arg3 (((cfg0.win 1).blk t).view.emb (ValueIdx.ix2 k (⟨(j 1).val, hq⟩ : Fin 128))) = V c main_arg3 _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 128 + 1 * (j 1).val = (j 1).val; omega
  · show V c main_v4 (((cfg0.win 2).blk t).view.emb (ValueIdx.ix2 (0 : Fin 1) (⟨(j 1).val, hq⟩ : Fin 128))) = V c main_v4 _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 128 + 1 * (j 1).val = (j 1).val; omega

/-- An index of the output array is in point t's block iff each coordinate is in the block's range on its axis. -/
theorem mem_blk (t : Fin cfg0.N) (i : S600000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- Every row r of the output is in the block of point r / 10000, which is written back. -/
theorem cover (i : S600000x128.Idx) : ∃ t : Fin cfg0.N, (cfg0.win 3).flush t = true ∧ i ∈ ((cfg0.win 3).blk t).view.set := by
  have hi0 : (i 0).val < 600000 := (i 0).isLt
  have hi1 : (i 1).val < 128 := (i 1).isLt
  have hN : cfg0.N = 60 := N_0
  refine ⟨⟨(i 0).val / 10000, by rw [hN]; omega⟩, flush0_3 _, ?_⟩
  rw [mem_blk]
  obtain ⟨-, -, -, -, -, -, e30, e31⟩ := idx_facts ⟨(i 0).val / 10000, by rw [hN]; omega⟩
  intro a
  match a with
  | ⟨0, _⟩ =>
    show win0_3.index ⟨(i 0).val / 10000, _⟩ (0 : Fin 2) * 10000 ≤ (i 0).val ∧ (i 0).val < win0_3.index ⟨(i 0).val / 10000, _⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, _⟩ (1 : Fin 2) * 128 ≤ (i 1).val ∧ (i 1).val < win0_3.index ⟨(i 0).val / 10000, _⟩ (1 : Fin 2) * 128 + 128
    rw [e31]; omega

/-- The output array after the launch, as one function of the three input arrays as entered. -/
theorem value (V : (c : Dev nD) → (b : Ref sig .tc) → Buf (Elt Ideal) ((c : Thread nD τ).loc b)) (c : Dev nD) :
    (dat0 (F := Ideal) V c).arrAt 3 cfg0.N = Cert.Model.edgeLin (F := Ideal) (V c main_arg2) (V c main_arg3) (V c main_v4) :=
  (dat0 (F := Ideal) V c).arrAt_eq_of_cover 3 (Cert.Model.edgeLin (F := Ideal) (V c main_arg2) (V c main_arg3) (V c main_v4))
    (fun t _ => flushed_eq V c t) cover

end Cert.KernelIdeal.Region0

end
-- ==== Proof.Region1.lean ====
/-
  The first node update's launch: 10 grid points, point t computing rows 5000·t … 5000·t + 4999 of
  relu ((x + aggr) · W + b) from the same rows of x and aggr, all of W and the bias row.
-/
import proofs.«416361_j39393440039361_2_alg».proof.Proof.Gen.KernelIdeal.Frame
import proofs.«416361_j39393440039361_2_alg».proof.Proof.Model
import proofs.«416361_j39393440039361_2_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem
open Cert.KernelIdeal Cert.KernelIdeal.Gen

/-! ## One entry of a block's result

Entry (p, q) of what the body stores is max (Σₖ (x (p, k) + aggr (p, k)) · W (k, q) + b (0, q), 0): the two format
changes are the identity on exact values, and the product accumulates from zero. -/

/-- The left factor's index at output entry i and summand k: row of i, column k. -/
abbrev lrow (i : S5000x128.Idx) (k : Fin 128) : S5000x128.Idx := fun a => match a with
  | ⟨0, _⟩ => ⟨(i 0).val, (i 0).isLt⟩
  | ⟨1, _⟩ => ⟨k.val, k.isLt⟩
/-- The right factor's index at output entry i and summand k: row k, column of i. -/
abbrev rcol (i : S5000x128.Idx) (k : Fin 128) : S128x128.Idx := fun a => match a with
  | ⟨0, _⟩ => ⟨k.val, k.isLt⟩
  | ⟨1, _⟩ => ⟨(i 1).val, (i 1).isLt⟩
/-- The bias row's index at output entry i: row 0, column of i. -/
abbrev bcol (i : S5000x128.Idx) : S1x128.Idx := fun a => match a with
  | ⟨0, _⟩ => ⟨0, Nat.one_pos⟩
  | ⟨1, _⟩ => ⟨(i 1).val, (i 1).isLt⟩

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at an entry: the sum over k of left (row, k) times right (k, column). -/
theorem matmul_entry (l : FVec Ideal S5000x128 .bf16) (r : FVec Ideal S128x128 .bf16) (i : S5000x128.Idx) :
    matmul dot_S5000x128_S128x128_S5000x128_1_0_0_1_n_n none l r (constant (F := Ideal) S5000x128 .f32 0x00000000#32) i
      = ∑ k : Fin 128, l (lrow i k) * r (rcol i k) := by
  show FloatOps.matmul dot_S5000x128_S128x128_S5000x128_1_0_0_1_n_n none l r (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lrow i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = rcol i k := funext fun a => Fin.ext (by
    match a with
    | ⟨0, _⟩ => exact (rhs_axis0 _ _).trans hk
    | ⟨1, _⟩ => exact rhs_axis1 _ _)
  rw [el, er]

/-- The bias row spread down the block's rows, at an entry: the row's entry in the same column. -/
theorem bias_entry (b : FVec Ideal S1x128 .f32) (i : S5000x128.Idx) :
    broadcastTo S5000x128 b broadcasts_S1x128_S5000x128 i = b (bcol i) :=
  broadcastTo_apply b broadcasts_S1x128_S5000x128 i (bcol i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- The body's stored value at an entry. -/
theorem pay_entry (x0 x1 : Vec Ideal S5000x128 .f32) (w : Vec Ideal S128x128 .f32) (b : Vec Ideal S1x128 .f32) (i : S5000x128.Idx) :
    k1_pay1 (F := Ideal) x0 x1 w b i
      = max ((∑ k : Fin 128, (x0 (lrow i k) + x1 (lrow i k)) * w (rcol i k)) + b (bcol i)) 0 := by
  unfold k1_pay1
  simp only [shapeCast_self]
  rw [ValueIdx.maximumf_apply, ValueIdx.addf_apply, matmul_entry, bias_entry, ValueIdx.broadcast_apply]
  simp only [ValueIdx.truncf_apply, ValueIdx.addf_apply]
  show max _ (Ideal.ofBits .f32 0x00000000#32) = _
  rw [Ideal.ofBits_zero_f32]

/-! ## One entry of the whole-array function

Entry (r, q) of relu ((x + aggr) · W + b) over the full arrays, the same sum over k with full-array rows. -/

/-- The bias row's index at array entry j: row 0, column of j. -/
abbrev bcolN (j : S50000x128.Idx) : S1x128.Idx := fun a => match a with
  | ⟨0, _⟩ => ⟨0, Nat.one_pos⟩
  | ⟨1, _⟩ => ⟨(j 1).val, (j 1).isLt⟩

theorem model_entry (x a : FVec Ideal S50000x128 .f32) (w : FVec Ideal S128x128 .f32) (b : FVec Ideal S1x128 .f32) (j : S50000x128.Idx) :
    Cert.Model.reluN (F := Ideal) (Cert.Model.nodeLin (F := Ideal) x a w b) j
      = max ((∑ k : Fin 128, (x (Cert.ReferenceIdeal.Read.lidx_main_v21 j k) + a (Cert.ReferenceIdeal.Read.lidx_main_v21 j k)) * w (Cert.ReferenceIdeal.Read.ridx_main_v21 j k)) + b (bcolN j)) 0 := by
  unfold Cert.Model.reluN Cert.Model.nodeLin
  rw [ValueIdx.maximumf_apply, ValueIdx.addf_apply, Cert.DotRead.dot_node]
  rw [broadcastInDim_apply _ Cert.ReferenceIdeal.Gen.bcast_S1x128_S50000x128_0_1 b j (bcolN j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rw [broadcastInDim_apply _ Cert.ReferenceIdeal.Gen.bcast_S_S50000x128 (constant (F := Ideal) Cert.ReferenceIdeal.S_ .f32 0x00000000#32) j ValueIdx.ix0 (fun a => a.elim0)]
  simp only [ValueIdx.addf_apply]
  show max _ (Ideal.ofBits .f32 0x00000000#32) = _
  rw [Ideal.ofBits_zero_f32]

/-! ## A block's entry is the whole-array function's entry

With the block's rows x0, x1 being rows 5000·n onward of the arrays X, A, and the weights and bias row whole, entry i of
the block's result is entry (5000·n + row of i, column of i) of relu ((X + A) · W + B). -/

theorem block_entry (X A : FVec Ideal S50000x128 .f32) (W : FVec Ideal S128x128 .f32) (B : FVec Ideal S1x128 .f32)
    (x0 x1 : Vec Ideal S5000x128 .f32) (w : Vec Ideal S128x128 .f32) (b : Vec Ideal S1x128 .f32)
    (n : Nat) (i : S5000x128.Idx) (j : S50000x128.Idx)
    (hj0 : (j 0).val = n * 5000 + (i 0).val) (hj1 : (j 1).val = (i 1).val)
    (h0 : ∀ (y : S5000x128.Idx) (z : S50000x128.Idx), (z 0).val = n * 5000 + (y 0).val → (z 1).val = (y 1).val → x0 y = X z)
    (h1 : ∀ (y : S5000x128.Idx) (z : S50000x128.Idx), (z 0).val = n * 5000 + (y 0).val → (z 1).val = (y 1).val → x1 y = A z)
    (h2 : w = W) (h3 : b = B) :
    k1_pay1 (F := Ideal) x0 x1 w b i = Cert.Model.reluN (F := Ideal) (Cert.Model.nodeLin (F := Ideal) X A W B) j := by
  rw [pay_entry, model_entry]
  subst h2 h3
  have hb : bcol i = bcolN j := funext fun a => Fin.ext (by
    match a with
    | ⟨0, _⟩ => rfl
    | ⟨1, _⟩ => exact hj1.symm)
  have hs : ∀ k : Fin 128, (x0 (lrow i k) + x1 (lrow i k)) * w (rcol i k)
      = (X (Cert.ReferenceIdeal.Read.lidx_main_v21 j k) + A (Cert.ReferenceIdeal.Read.lidx_main_v21 j k)) * w (Cert.ReferenceIdeal.Read.ridx_main_v21 j k) := by
    intro k
    have hr : rcol i k = Cert.ReferenceIdeal.Read.ridx_main_v21 j k := funext fun a => Fin.ext (by
      match a with
      | ⟨0, _⟩ => rfl
      | ⟨1, _⟩ => exact hj1.symm)
    rw [h0 (lrow i k) (Cert.ReferenceIdeal.Read.lidx_main_v21 j k) hj0 rfl, h1 (lrow i k) (Cert.ReferenceIdeal.Read.lidx_main_v21 j k) hj0 rfl, hr]
  rw [hb, Finset.sum_congr rfl fun k _ => hs k]

/-! ## The windows' blocks as parts of the arrays -/

theorem hz : (![0, 0] : Fin 2 → Nat) = fun _ => 0 := funext fun a => by fin_cases a <;> rfl

/-- The index maps over the grid: the two row-block inputs and the output are at block row t, the weights and the bias
    row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Window 0's block at point t is rows 5000·t onward of x. -/
theorem blk0_entry (t : Fin cfg1.N) (y : S5000x128.Idx) (z : S50000x128.Idx)
    (h0 : (z 0).val = t.val * 5000 + (y 0).val) (h1 : (z 1).val = (y 1).val) :
    (iblk1 V c 0 t : Vec Ideal S5000x128 .f32) y = (V c main_arg0 : S50000x128.Idx → Elt Ideal .f32) z := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 5000 + 1 * (y 0).val = (z 0).val; rw [e0, h0]; omega
  | ⟨1, _⟩ => show win1_0.index t (1 : Fin 2) * 128 + 1 * (y 1).val = (z 1).val; rw [e1, h1]; omega

/-- Window 1's block at point t is rows 5000·t onward of aggr. -/
theorem blk1_entry (t : Fin cfg1.N) (y : S5000x128.Idx) (z : S50000x128.Idx)
    (h0 : (z 0).val = t.val * 5000 + (y 0).val) (h1 : (z 1).val = (y 1).val) :
    (iblk1 V c 1 t : Vec Ideal S5000x128 .f32) y = (V c main_v11 : S50000x128.Idx → Elt Ideal .f32) z := by
  obtain ⟨-, -, e0, e1, -⟩ := idx_facts t
  unfold iblk1
  rw [View.read_apply]
  show V c main_v11 _ = V c main_v11 _
  congr 1
  funext a
  apply Fin.ext
  match a with
  | ⟨0, _⟩ => show win1_1.index t (0 : Fin 2) * 5000 + 1 * (y 0).val = (z 0).val; rw [e0, h0]; omega
  | ⟨1, _⟩ => show win1_1.index t (1 : Fin 2) * 128 + 1 * (y 1).val = (z 1).val; rw [e1, h1]; omega

/-- Window 2's block at every point is all of W. -/
theorem blk2_eq (t : Fin cfg1.N) :
    (iblk1 V c 2 t : Vec Ideal S128x128 .f32) = (V c main_arg5 : S128x128.Idx → Elt Ideal .f32) := by
  obtain ⟨-, -, -, -, e0, e1, -⟩ := idx_facts t
  funext y
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Window 3's block at every point is the whole bias row. -/
theorem blk3_eq (t : Fin cfg1.N) :
    (iblk1 V c 3 t : Vec Ideal S1x128 .f32) = (V c main_v12 : S1x128.Idx → Elt Ideal .f32) := by
  obtain ⟨-, -, -, -, -, -, e0, e1, -⟩ := idx_facts t
  funext y
  unfold iblk1
  rw [View.read_apply]
  show V c main_v12 _ = V c main_v12 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- What point t writes back is block t of relu ((x + aggr) · W + b) of the arrays as entered. -/
theorem flushed_eq (t : Fin cfg1.N) :
    (dat1 (F := Ideal) V c).flushed 4 t = ((cfg1.win 4).blk t).view.read (Elt Ideal)
      (Cert.Model.reluN (F := Ideal) (Cert.Model.nodeLin (V c main_arg0) (V c main_v11) (V c main_arg5) (V c main_v12))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨-, -, -, -, -, -, -, -, e0, e1⟩ := idx_facts t
  funext j
  refine block_entry (V c main_arg0) (V c main_v11) (V c main_arg5) (V c main_v12)
    (iblk1 V c 0 t) (iblk1 V c 1 t) (iblk1 V c 2 t) (iblk1 V c 3 t) t.val _ (((cfg1.win 4).blk t).view.emb j) ?_ ?_
    (fun y z h0 h1 => blk0_entry V c t y z h0 h1) (fun y z h0 h1 => blk1_entry V c t y z h0 h1) (blk2_eq V c t) (blk3_eq V c t)
  · show win1_4.index t (0 : Fin 2) * 5000 + 1 * (j 0).val = t.val * 5000 + (j 0).val; rw [e0]; omega
  · show win1_4.index t (1 : Fin 2) * 128 + 1 * (j 1).val = (j 1).val; rw [e1]; omega

end Blocks

/-! ## The blocks cover the array -/

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v13).slice (win1_4.rect t)).set ↔ _
  rw [View.set_slice_whole, Rect.mem_set_unit]
  exact Iff.rfl

/-- Row r of the array is in the block of point r / 5000. -/
theorem cover (i : S50000x128.Idx) : ∃ t : Fin cfg1.N, (cfg1.win 4).flush t = true ∧ i ∈ ((cfg1.win 4).blk t).view.set := by
  have hi0 : (i 0).val < 50000 := ValueIdx.idx2_lt0 i
  have hi1 : (i 1).val < 128 := ValueIdx.idx2_lt1 i
  have hN : cfg1.N = 10 := N_1
  refine ⟨⟨(i 0).val / 5000, by rw [hN]; omega⟩, flush1_4 _, ?_⟩
  rw [mem_blk]
  obtain ⟨-, -, -, -, -, -, -, -, e0, e1⟩ := idx_facts ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e1]; omega

/-- The output array after the launch, as one function of the four input arrays as entered. -/
theorem value (V : (c : Dev nD) → (b : Ref sig .tc) → Buf (Elt Ideal) ((c : Thread nD τ).loc b)) (c : Dev nD) :
    (dat1 (F := Ideal) V c).arrAt 4 cfg1.N =
      Cert.Model.reluN (F := Ideal) (Cert.Model.nodeLin (V c main_arg0) (V c main_v11) (V c main_arg5) (V c main_v12)) :=
  (dat1 (F := Ideal) V c).arrAt_eq_of_cover 4 _ (fun t _ => flushed_eq V c t) cover

end Cert.KernelIdeal.Region1

end
-- ==== Proof.Region2.lean ====
/-
  The second node update's launch: 10 grid points, point t computing rows 5000·t … 5000·t + 4999 of
  relu ((x + aggr) · W + b) from the same rows of x and aggr, all of W and the bias row.
-/
import proofs.«416361_j39393440039361_2_alg».proof.Proof.Gen.KernelIdeal.Frame
import proofs.«416361_j39393440039361_2_alg».proof.Proof.Model
import proofs.«416361_j39393440039361_2_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem
open Cert.KernelIdeal Cert.KernelIdeal.Gen

/-! ## The stored block at an entry

The body adds its two row blocks (each under a shape cast to its own shape), multiplies by W into a zero accumulator,
adds the bias row spread down the rows and takes the maximum with zero. On exact values the narrowing of the two
factors changes nothing, so entry (p, q) is max (Σₖ (x (p, k) + aggr (p, k)) · W (k, q) + b (0, q), 0). -/

/-- Where the left factor is read for output entry i, summand k: (row of i, k). -/
abbrev lrow (i : S5000x128.Idx) (k : Fin 128) : S5000x128.Idx := fun a => match a with
  | ⟨0, _⟩ => ⟨(i 0).val, (i 0).isLt⟩
  | ⟨1, _⟩ => ⟨k.val, k.isLt⟩
/-- Where the right factor is read for output entry i, summand k: (k, column of i). -/
abbrev rcol (i : S5000x128.Idx) (k : Fin 128) : S128x128.Idx := fun a => match a with
  | ⟨0, _⟩ => ⟨k.val, k.isLt⟩
  | ⟨1, _⟩ => ⟨(i 1).val, (i 1).isLt⟩
/-- Where the bias row is read for output entry i: (0, column of i). -/
abbrev bcol (i : S5000x128.Idx) : S1x128.Idx := fun a => match a with
  | ⟨0, _⟩ => ⟨0, Nat.one_pos⟩
  | ⟨1, _⟩ => ⟨(i 1).val, (i 1).isLt⟩

/-- The left factor's row coordinate is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column coordinate is the summation index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row coordinate is the summation index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor's column coordinate is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a row block with W, accumulated from zero, at an entry: Σₖ left (row, k) · right (k, column). -/
theorem matmul_entry (l : FVec Ideal S5000x128 .bf16) (r : FVec Ideal S128x128 .bf16) (i : S5000x128.Idx) :
    matmul dot_S5000x128_S128x128_S5000x128_1_0_0_1_n_n none l r (constant (F := Ideal) S5000x128 .f32 0x00000000#32) i
      = ∑ k : Fin 128, l (lrow i k) * r (rcol i k) := by
  show FloatOps.matmul dot_S5000x128_S128x128_S5000x128_1_0_0_1_n_n none l r (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lrow i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = rcol i k := funext fun a => Fin.ext (by
    match a with
    | ⟨0, _⟩ => exact (rhs_axis0 _ _).trans hk
    | ⟨1, _⟩ => exact rhs_axis1 _ _)
  rw [el, er]

/-- The bias row repeated on each of the block's rows, at an entry: the row's entry in that column. -/
theorem bias_entry (b : FVec Ideal S1x128 .f32) (i : S5000x128.Idx) :
    broadcastTo S5000x128 b broadcasts_S1x128_S5000x128 i = b (bcol i) :=
  broadcastTo_apply b broadcasts_S1x128_S5000x128 i (bcol i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- What the body stores, at an entry. -/
theorem pay_entry (x0 x1 : Vec Ideal S5000x128 .f32) (w : Vec Ideal S128x128 .f32) (b : Vec Ideal S1x128 .f32) (i : S5000x128.Idx) :
    k2_pay1 (F := Ideal) x0 x1 w b i
      = max ((∑ k : Fin 128, (x0 (lrow i k) + x1 (lrow i k)) * w (rcol i k)) + b (bcol i)) 0 := by
  unfold k2_pay1
  simp only [shapeCast_self]
  rw [ValueIdx.maximumf_apply, ValueIdx.addf_apply, matmul_entry, bias_entry, ValueIdx.broadcast_apply]
  simp only [ValueIdx.truncf_apply, ValueIdx.addf_apply]
  show max _ (Ideal.ofBits .f32 0x00000000#32) = _
  rw [Ideal.ofBits_zero_f32]

/-! ## The whole-array function at an entry

Entry (r, q) of relu ((x + aggr) · W + b) over the full arrays: the host product at an entry is the sum over k, the
bias row is spread along axis 0, and the relu's zero is the zero word spread everywhere. -/

/-- Where the bias row is read for array entry j: (0, column of j). -/
abbrev bcolN (j : S50000x128.Idx) : S1x128.Idx := fun a => match a with
  | ⟨0, _⟩ => ⟨0, Nat.one_pos⟩
  | ⟨1, _⟩ => ⟨(j 1).val, (j 1).isLt⟩

theorem model_entry (x a : FVec Ideal S50000x128 .f32) (w : FVec Ideal S128x128 .f32) (b : FVec Ideal S1x128 .f32) (j : S50000x128.Idx) :
    Cert.Model.reluN (F := Ideal) (Cert.Model.nodeLin (F := Ideal) x a w b) j
      = max ((∑ k : Fin 128, (x (Cert.ReferenceIdeal.Read.lidx_main_v21 j k) + a (Cert.ReferenceIdeal.Read.lidx_main_v21 j k)) * w (Cert.ReferenceIdeal.Read.ridx_main_v21 j k)) + b (bcolN j)) 0 := by
  unfold Cert.Model.reluN Cert.Model.nodeLin
  rw [ValueIdx.maximumf_apply, ValueIdx.addf_apply, Cert.DotRead.dot_node]
  rw [broadcastInDim_apply _ Cert.ReferenceIdeal.Gen.bcast_S1x128_S50000x128_0_1 b j (bcolN j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rw [broadcastInDim_apply _ Cert.ReferenceIdeal.Gen.bcast_S_S50000x128 (constant (F := Ideal) Cert.ReferenceIdeal.S_ .f32 0x00000000#32) j ValueIdx.ix0 (fun a => a.elim0)]
  simp only [ValueIdx.addf_apply]
  show max _ (Ideal.ofBits .f32 0x00000000#32) = _
  rw [Ideal.ofBits_zero_f32]

/-! ## From a block's entry to the array's

If x0, x1 are rows 5000·n onward of X and A, and w, b are all of W and B, then entry i of the stored block is entry
(5000·n + row of i, column of i) of relu ((X + A) · W + B): the two sums agree term by term. -/

theorem block_entry (X A : FVec Ideal S50000x128 .f32) (W : FVec Ideal S128x128 .f32) (B : FVec Ideal S1x128 .f32)
    (x0 x1 : Vec Ideal S5000x128 .f32) (w : Vec Ideal S128x128 .f32) (b : Vec Ideal S1x128 .f32)
    (n : Nat) (i : S5000x128.Idx) (j : S50000x128.Idx)
    (hj0 : (j 0).val = n * 5000 + (i 0).val) (hj1 : (j 1).val = (i 1).val)
    (h0 : ∀ (y : S5000x128.Idx) (z : S50000x128.Idx), (z 0).val = n * 5000 + (y 0).val → (z 1).val = (y 1).val → x0 y = X z)
    (h1 : ∀ (y : S5000x128.Idx) (z : S50000x128.Idx), (z 0).val = n * 5000 + (y 0).val → (z 1).val = (y 1).val → x1 y = A z)
    (h2 : w = W) (h3 : b = B) :
    k2_pay1 (F := Ideal) x0 x1 w b i = Cert.Model.reluN (F := Ideal) (Cert.Model.nodeLin (F := Ideal) X A W B) j := by
  rw [pay_entry, model_entry]
  subst h2 h3
  have hb : bcol i = bcolN j := funext fun a => Fin.ext (by
    match a with
    | ⟨0, _⟩ => rfl
    | ⟨1, _⟩ => exact hj1.symm)
  have hterm : ∀ k : Fin 128, (x0 (lrow i k) + x1 (lrow i k)) * w (rcol i k)
      = (X (Cert.ReferenceIdeal.Read.lidx_main_v21 j k) + A (Cert.ReferenceIdeal.Read.lidx_main_v21 j k)) * w (Cert.ReferenceIdeal.Read.ridx_main_v21 j k) := by
    intro k
    have hr : rcol i k = Cert.ReferenceIdeal.Read.ridx_main_v21 j k := funext fun a => Fin.ext (by
      match a with
      | ⟨0, _⟩ => rfl
      | ⟨1, _⟩ => exact hj1.symm)
    rw [h0 (lrow i k) (Cert.ReferenceIdeal.Read.lidx_main_v21 j k) hj0 rfl, h1 (lrow i k) (Cert.ReferenceIdeal.Read.lidx_main_v21 j k) hj0 rfl, hr]
  rw [hb, Finset.sum_congr rfl fun k _ => hterm k]

/-! ## Each window's block as a part of its array -/

theorem hz : (![0, 0] : Fin 2 → Nat) = fun _ => 0 := funext fun a => by fin_cases a <;> rfl

/-- The index maps over the grid: the row-block inputs (windows 0, 1) and the output (window 4) sit at block row t, the
    weights (window 2) and the bias row (window 3) at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Blocks
variable (V : (c : Dev nD) → (b : Ref sig .tc) → Buf (Elt Ideal) ((c : Thread nD τ).loc b)) (c : Dev nD)

/-- Window 0's block at point t: rows 5000·t onward of x. -/
theorem blk0_entry (t : Fin cfg2.N) (y : S5000x128.Idx) (z : S50000x128.Idx)
    (h0 : (z 0).val = t.val * 5000 + (y 0).val) (h1 : (z 1).val = (y 1).val) :
    (iblk2 V c 0 t : Vec Ideal S5000x128 .f32) y = (V c main_v13 : S50000x128.Idx → Elt Ideal .f32) z := by
  obtain ⟨e0, e1, -⟩ := idx_facts t
  unfold iblk2
  rw [View.read_apply]
  show V c main_v13 _ = V c main_v13 _
  congr 1
  funext a
  apply Fin.ext
  match a with
  | ⟨0, _⟩ => show win2_0.index t (0 : Fin 2) * 5000 + 1 * (y 0).val = (z 0).val; rw [e0, h0]; omega
  | ⟨1, _⟩ => show win2_0.index t (1 : Fin 2) * 128 + 1 * (y 1).val = (z 1).val; rw [e1, h1]; omega

/-- Window 1's block at point t: rows 5000·t onward of aggr. -/
theorem blk1_entry (t : Fin cfg2.N) (y : S5000x128.Idx) (z : S50000x128.Idx)
    (h0 : (z 0).val = t.val * 5000 + (y 0).val) (h1 : (z 1).val = (y 1).val) :
    (iblk2 V c 1 t : Vec Ideal S5000x128 .f32) y = (V c main_v19 : S50000x128.Idx → Elt Ideal .f32) z := by
  obtain ⟨-, -, e0, e1, -⟩ := idx_facts t
  unfold iblk2
  rw [View.read_apply]
  show V c main_v19 _ = V c main_v19 _
  congr 1
  funext a
  apply Fin.ext
  match a with
  | ⟨0, _⟩ => show win2_1.index t (0 : Fin 2) * 5000 + 1 * (y 0).val = (z 0).val; rw [e0, h0]; omega
  | ⟨1, _⟩ => show win2_1.index t (1 : Fin 2) * 128 + 1 * (y 1).val = (z 1).val; rw [e1, h1]; omega

/-- Window 2's block at every point: all of W. -/
theorem blk2_eq (t : Fin cfg2.N) :
    (iblk2 V c 2 t : Vec Ideal S128x128 .f32) = (V c main_arg5 : S128x128.Idx → Elt Ideal .f32) := by
  obtain ⟨-, -, -, -, e0, e1, -⟩ := idx_facts t
  funext y
  unfold iblk2
  rw [View.read_apply]
  show V c main_arg5 _ = V c main_arg5 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3's block at every point: the whole bias row. -/
theorem blk3_eq (t : Fin cfg2.N) :
    (iblk2 V c 3 t : Vec Ideal S1x128 .f32) = (V c main_v20 : S1x128.Idx → Elt Ideal .f32) := by
  obtain ⟨-, -, -, -, -, -, e0, e1, -⟩ := idx_facts t
  funext y
  unfold iblk2
  rw [View.read_apply]
  show V c main_v20 _ = V c main_v20 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Point t writes back block t of relu ((x + aggr) · W + b) of the arrays as entered. -/
theorem flushed_eq (t : Fin cfg2.N) :
    (dat2 (F := Ideal) V c).flushed 4 t = ((cfg2.win 4).blk t).view.read (Elt Ideal)
      (Cert.Model.reluN (F := Ideal) (Cert.Model.nodeLin (V c main_v13) (V c main_v19) (V c main_arg5) (V c main_v20))) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  obtain ⟨-, -, -, -, -, -, -, -, e0, e1⟩ := idx_facts t
  funext j
  refine block_entry (V c main_v13) (V c main_v19) (V c main_arg5) (V c main_v20)
    (iblk2 V c 0 t) (iblk2 V c 1 t) (iblk2 V c 2 t) (iblk2 V c 3 t) t.val _ (((cfg2.win 4).blk t).view.emb j) ?_ ?_
    (fun y z h0 h1 => blk0_entry V c t y z h0 h1) (fun y z h0 h1 => blk1_entry V c t y z h0 h1) (blk2_eq V c t) (blk3_eq V c t)
  · show win2_4.index t (0 : Fin 2) * 5000 + 1 * (j 0).val = t.val * 5000 + (j 0).val; rw [e0]; omega
  · show win2_4.index t (1 : Fin 2) * 128 + 1 * (j 1).val = (j 1).val; rw [e1]; omega

end Blocks

/-! ## The ten blocks fill the array -/

/-- An index of the array lies in point t's block iff each coordinate lies in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v21).slice (win2_4.rect t)).set ↔ _
  rw [View.set_slice_whole, Rect.mem_set_unit]
  exact Iff.rfl

/-- Row r of the array lies in the block of point r / 5000. -/
theorem cover (i : S50000x128.Idx) : ∃ t : Fin cfg2.N, (cfg2.win 4).flush t = true ∧ i ∈ ((cfg2.win 4).blk t).view.set := by
  have hi0 : (i 0).val < 50000 := ValueIdx.idx2_lt0 i
  have hi1 : (i 1).val < 128 := ValueIdx.idx2_lt1 i
  have hN : cfg2.N = 10 := N_2
  refine ⟨⟨(i 0).val / 5000, by rw [hN]; omega⟩, flush2_4 _, ?_⟩
  rw [mem_blk]
  obtain ⟨-, -, -, -, -, -, -, -, e0, e1⟩ := idx_facts ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e1]; omega

/-- The output array after the launch, as one function of the four input arrays as entered. -/
theorem value (V : (c : Dev nD) → (b : Ref sig .tc) → Buf (Elt Ideal) ((c : Thread nD τ).loc b)) (c : Dev nD) :
    (dat2 (F := Ideal) V c).arrAt 4 cfg2.N =
      Cert.Model.reluN (F := Ideal) (Cert.Model.nodeLin (V c main_v13) (V c main_v19) (V c main_arg5) (V c main_v20)) :=
  (dat2 (F := Ideal) V c).arrAt_eq_of_cover 4 _ (fun t _ => flushed_eq V c t) cover

end Cert.KernelIdeal.Region2

end
-- ==== Proof.Region3.lean ====
/-
  The last launch: the third node update (no relu) and the classifier in one body. 10 grid points, point t
  computing rows 5000·t … 5000·t + 4999 of relu (((x + aggr) · W + b) · W₁ + b₁) · W₂ + b₂.
-/
import proofs.«416361_j39393440039361_2_alg».proof.Proof.Gen.KernelIdeal.Frame
import proofs.«416361_j39393440039361_2_alg».proof.Proof.Model
import proofs.«416361_j39393440039361_2_alg».proof.Proof.DotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem
open Cert.KernelIdeal Cert.KernelIdeal.Gen
open Idealize.ShloMosaic.ValueIdx
open scoped BigOperators

/-! ## The S5000x128 · S128x128 product of the body at an index -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into a zero accumulator is the sum over k of l (p, k) · r (k, q). -/
theorem mmA_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The S5000x128 · S128x32 product of the body at an index -/

theorem lhsB_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhsB_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem rhsB_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem rhsB_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry (p, q) of the product into a zero accumulator is the sum over k of l (p, k) · r (k, q). -/
theorem mmB_apply (l : FVec Ideal S5000x128 .bf16) (r : FVec Ideal S128x32 .bf16) (p : Fin 5000) (q : Fin 32) :
    matmul dot_S5000x128_S128x32_S5000x32_1_0_0_1_n_n none l r (constant (F := Ideal) S5000x32 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 p q) ((ValueIdx.contrEquiv1 dot_S5000x128_S128x32_S5000x32_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x32_S5000x32_1_0_0_1_n_n.rhsIdx (ix2 p q) ((ValueIdx.contrEquiv1 dot_S5000x128_S128x32_S5000x32_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The S5000x32 · S32x16 product of the body at an index -/

theorem lhsC_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhsC_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhsC_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhsC_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (p, q) of the product into a zero accumulator is the sum over k of l (p, k) · r (k, q). -/
theorem mmC_apply (l : FVec Ideal S5000x32 .bf16) (r : FVec Ideal S32x16 .bf16) (p : Fin 5000) (q : Fin 16) :
    matmul dot_S5000x32_S32x16_S5000x16_1_0_0_1_n_n none l r (constant (F := Ideal) S5000x16 .f32 0x00000000#32) (ix2 p q)
      = ∑ k : Fin 32, l (ix2 p k) * r (ix2 k q) := by
  simp only [matmul]
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 p q) ((ValueIdx.contrEquiv1 dot_S5000x32_S32x16_S5000x16_1_0_0_1_n_n 32 rfl rfl).symm k) = ix2 p k := funext fun a => Fin.ext (by
    match a with
    | ⟨0, _⟩ => exact lhsC_0 _ _
    | ⟨1, _⟩ => exact (lhsC_1 _ _).trans hk)
  have er : dot_S5000x32_S32x16_S5000x16_1_0_0_1_n_n.rhsIdx (ix2 p q) ((ValueIdx.contrEquiv1 dot_S5000x32_S32x16_S5000x16_1_0_0_1_n_n 32 rfl rfl).symm k) = ix2 k q := funext fun a => Fin.ext (by
    match a with
    | ⟨0, _⟩ => exact (rhsC_0 _ _).trans hk
    | ⟨1, _⟩ => exact rhsC_1 _ _)
  rw [el, er]

/-! ## The body's three stages on a block -/

section Stages

/-- (x + aggr) · W + b on a block of 5000 rows. -/
def kLin (x0 x1 : Vec Ideal S5000x128 .f32) (x2 : Vec Ideal S128x128 .f32) (x3 : Vec Ideal S1x128 .f32) : FVec Ideal S5000x128 .f32 :=
  addf (matmul dot_S5000x128_S128x128_S5000x128_1_0_0_1_n_n none
      (truncf .bf16 (addf (shapeCast S5000x128 x0 shapeCasts_S5000x128_S5000x128) (shapeCast S5000x128 x1 shapeCasts_S5000x128_S5000x128)) bitsLt_bf16_f32)
      (truncf .bf16 x2 bitsLt_bf16_f32) (constant S5000x128 .f32 0x00000000#32))
    (broadcastTo S5000x128 (shapeCast S1x128 x3 shapeCasts_S1x128_S1x128) broadcasts_S1x128_S5000x128)

/-- relu (y · W₁ + b₁) on a block of 5000 rows. -/
def kHid (y : FVec Ideal S5000x128 .f32) (x4 : Vec Ideal S128x32 .f32) (x5 : Vec Ideal S1x32 .f32) : FVec Ideal S5000x32 .f32 :=
  maximumf (addf (matmul dot_S5000x128_S128x32_S5000x32_1_0_0_1_n_n none
        (truncf .bf16 y bitsLt_bf16_f32) (truncf .bf16 x4 bitsLt_bf16_f32) (constant S5000x32 .f32 0x00000000#32))
      (broadcastTo S5000x32 (shapeCast S1x32 x5 shapeCasts_S1x32_S1x32) broadcasts_S1x32_S5000x32))
    (broadcast S5000x32 (Scalar.ofBits .f32 0x00000000#32))

/-- z · W₂ + b₂ on a block of 5000 rows. -/
def kOut (z : FVec Ideal S5000x32 .f32) (x6 : Vec Ideal S32x16 .f32) (x7 : Vec Ideal S1x16 .f32) : FVec Ideal S5000x16 .f32 :=
  addf (matmul dot_S5000x32_S32x16_S5000x16_1_0_0_1_n_n none
      (truncf .bf16 z bitsLt_bf16_f32) (truncf .bf16 x6 bitsLt_bf16_f32) (constant S5000x16 .f32 0x00000000#32))
    (broadcastTo S5000x16 (shapeCast S1x16 x7 shapeCasts_S1x16_S1x16) broadcasts_S1x16_S5000x16)

/-- The body's payload is the three stages composed. -/
theorem pay_eq (x0 x1 : Vec Ideal S5000x128 .f32) (x2 : Vec Ideal S128x128 .f32) (x3 : Vec Ideal S1x128 .f32)
    (x4 : Vec Ideal S128x32 .f32) (x5 : Vec Ideal S1x32 .f32) (x6 : Vec Ideal S32x16 .f32) (x7 : Vec Ideal S1x16 .f32) :
    k3_pay1 (F := Ideal) x0 x1 x2 x3 x4 x5 x6 x7 = kOut (kHid (kLin x0 x1 x2 x3) x4 x5) x6 x7 := rfl

/-- A bias row spread down the rows reads the row's entry. -/
theorem bias128_apply (x3 : Vec Ideal S1x128 .f32) (p : Fin 5000) (q : Fin 128) :
    broadcastTo S5000x128 (shapeCast S1x128 x3 shapeCasts_S1x128_S1x128) broadcasts_S1x128_S5000x128 (ix2 p q) = x3 (ix2 (0 : Fin 1) q) := by
  rw [shapeCast_self]
  exact broadcastTo_apply x3 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])
theorem bias32_apply (x5 : Vec Ideal S1x32 .f32) (p : Fin 5000) (q : Fin 32) :
    broadcastTo S5000x32 (shapeCast S1x32 x5 shapeCasts_S1x32_S1x32) broadcasts_S1x32_S5000x32 (ix2 p q) = x5 (ix2 (0 : Fin 1) q) := by
  rw [shapeCast_self]
  exact broadcastTo_apply x5 broadcasts_S1x32_S5000x32 (ix2 p q) (ix2 (0 : Fin 1) q) (fun a => match a with
    | ⟨0, _⟩ => by show 0 = if (1 : Nat) = 1 then 0 else _; rw [if_pos rfl]
    | ⟨1, _⟩ => by show q.val = if (32 : Nat) = 1 then 0 else q.val; rw [if_neg (by decide)])
theorem bias16_apply (x7 : Vec Ideal S1x16 .f32) (p : Fin 5000) (q : Fin 16) :
    broadcastTo S5000x16 (shapeCast S1x16 x7 shapeCasts_S1x16_S1x16) broadcasts_S1x16_S5000x16 (ix2 p q) = x7 (ix2 (0 : Fin 1) q) := by
  rw [shapeCast_self]
  exact broadcastTo_apply x7 broadcasts_S1x16_S5000x16 (ix2 p q) (ix2 (0 : Fin 1) q) (fun a => match a with
    | ⟨0, _⟩ => by show 0 = if (1 : Nat) = 1 then 0 else _; rw [if_pos rfl]
    | ⟨1, _⟩ => by show q.val = if (16 : Nat) = 1 then 0 else q.val; rw [if_neg (by decide)])

/-- Entry (p, q) of the first stage: the row p of x + aggr against column q of W, plus b q. -/
theorem kLin_apply (x0 x1 : Vec Ideal S5000x128 .f32) (x2 : Vec Ideal S128x128 .f32) (x3 : Vec Ideal S1x128 .f32) (p : Fin 5000) (q : Fin 128) :
    kLin x0 x1 x2 x3 (ix2 p q) = (∑ k : Fin 128, (x0 (ix2 p k) + x1 (ix2 p k)) * x2 (ix2 k q)) + x3 (ix2 (0 : Fin 1) q) := by
  unfold kLin
  rw [addf_apply, mmA_apply, bias128_apply]
  simp only [shapeCast_self, truncf_apply, addf_apply]

/-- Entry (p, q) of the second stage. -/
theorem kHid_apply (y : FVec Ideal S5000x128 .f32) (x4 : Vec Ideal S128x32 .f32) (x5 : Vec Ideal S1x32 .f32) (p : Fin 5000) (q : Fin 32) :
    kHid y x4 x5 (ix2 p q) = max ((∑ k : Fin 128, y (ix2 p k) * x4 (ix2 k q)) + x5 (ix2 (0 : Fin 1) q)) 0 := by
  unfold kHid
  rw [maximumf_apply, addf_apply, mmB_apply, bias32_apply, broadcast_apply]
  simp only [truncf_apply]
  show max _ (Ideal.ofBits .f32 0x00000000#32) = _
  rw [Ideal.ofBits_zero_f32]

/-- Entry (p, q) of the third stage. -/
theorem kOut_apply (z : FVec Ideal S5000x32 .f32) (x6 : Vec Ideal S32x16 .f32) (x7 : Vec Ideal S1x16 .f32) (p : Fin 5000) (q : Fin 16) :
    kOut z x6 x7 (ix2 p q) = (∑ k : Fin 32, z (ix2 p k) * x6 (ix2 k q)) + x7 (ix2 (0 : Fin 1) q) := by
  unfold kOut
  rw [addf_apply, mmC_apply, bias16_apply]
  simp only [truncf_apply]

end Stages

/-! ## The network over the whole arrays, at an index -/

/-- Entry (r, q) of (x + aggr) · W + b over the full arrays. -/
theorem nodeLin_apply (X A : FVec Ideal S50000x128 .f32) (W : FVec Ideal S128x128 .f32) (b : FVec Ideal S1x128 .f32) (r : Fin 50000) (q : Fin 128) :
    Cert.Model.nodeLin (F := Ideal) X A W b (ix2 r q)
      = (∑ k : Fin 128, (X (ix2 r k) + A (ix2 r k)) * W (ix2 k q)) + b (ix2 (0 : Fin 1) q) := by
  unfold Cert.Model.nodeLin
  rw [addf_apply, Cert.DotRead.dot_node]
  congr 1
  · refine Finset.sum_congr rfl fun k _ => ?_
    have el : Cert.ReferenceIdeal.Read.lidx_main_v21 (ix2 r q) k = ix2 r k := funext fun a => match a with | ⟨0, _⟩ => rfl | ⟨1, _⟩ => rfl
    have er : Cert.ReferenceIdeal.Read.ridx_main_v21 (ix2 r q) k = ix2 k q := funext fun a => match a with | ⟨0, _⟩ => rfl | ⟨1, _⟩ => rfl
    rw [el, er, addf_apply]
  · exact broadcastInDim_apply _ _ b (ix2 r q) (ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])

/-- Entry (r, q) of relu (y · W₁ + b₁) · W₂ + b₂ over the full arrays. -/
theorem classify_apply (Y : FVec Ideal S50000x128 .f32) (W1 : FVec Ideal S128x32 .f32) (b1 : FVec Ideal S1x32 .f32)
    (W2 : FVec Ideal S32x16 .f32) (b2 : FVec Ideal S1x16 .f32) (r : Fin 50000) (q : Fin 16) :
    Cert.Model.classify (F := Ideal) Y W1 b1 W2 b2 (ix2 r q)
      = (∑ k3 : Fin 32, max ((∑ k2 : Fin 128, Y (ix2 r k2) * W1 (ix2 k2 k3)) + b1 (ix2 (0 : Fin 1) k3)) 0 * W2 (ix2 k3 q))
        + b2 (ix2 (0 : Fin 1) q) := by
  unfold Cert.Model.classify
  rw [addf_apply, Cert.DotRead.dot_out]
  congr 1
  · refine Finset.sum_congr rfl fun k3 _ => ?_
    have el : Cert.ReferenceIdeal.Read.lidx_main_v66 (ix2 r q) k3 = ix2 r k3 := funext fun a => match a with | ⟨0, _⟩ => rfl | ⟨1, _⟩ => rfl
    have er : Cert.ReferenceIdeal.Read.ridx_main_v66 (ix2 r q) k3 = ix2 k3 q := funext fun a => match a with | ⟨0, _⟩ => rfl | ⟨1, _⟩ => rfl
    rw [el, er, maximumf_apply, addf_apply, Cert.DotRead.dot_hidden]
    congr 2
    · congr 1
      · refine Finset.sum_congr rfl fun k2 _ => ?_
        have el2 : Cert.ReferenceIdeal.Read.lidx_main_v61 (ix2 r k3) k2 = ix2 r k2 := funext fun a => match a with | ⟨0, _⟩ => rfl | ⟨1, _⟩ => rfl
        have er2 : Cert.ReferenceIdeal.Read.ridx_main_v61 (ix2 r k3) k2 = ix2 k2 k3 := funext fun a => match a with | ⟨0, _⟩ => rfl | ⟨1, _⟩ => rfl
        rw [el2, er2]
      · exact broadcastInDim_apply _ _ b1 (ix2 r k3) (ix2 (0 : Fin 1) k3) (fun a => match a with
          | ⟨0, _⟩ => by show 0 = if (1 : Nat) = 1 then 0 else _; rw [if_pos rfl]
          | ⟨1, _⟩ => by show k3.val = if (32 : Nat) = 1 then 0 else k3.val; rw [if_neg (by decide)])
    · show Ideal.ofBits .f32 0x00000000#32 = 0
      exact Ideal.ofBits_zero_f32
  · exact broadcastInDim_apply _ _ b2 (ix2 r q) (ix2 (0 : Fin 1) q) (fun a => match a with
      | ⟨0, _⟩ => by show 0 = if (1 : Nat) = 1 then 0 else _; rw [if_pos rfl]
      | ⟨1, _⟩ => by show q.val = if (16 : Nat) = 1 then 0 else q.val; rw [if_neg (by decide)])

/-! ## The payload of a block against the network at the block's rows -/

/-- If row p of the block of x and of aggr is row r of the arrays, and the small arrays are read whole, entry (p, q) of the
    payload is entry (r, q) of the network. -/
theorem pay_apply (x0 x1 : Vec Ideal S5000x128 .f32) (x2 : Vec Ideal S128x128 .f32) (x3 : Vec Ideal S1x128 .f32)
    (x4 : Vec Ideal S128x32 .f32) (x5 : Vec Ideal S1x32 .f32) (x6 : Vec Ideal S32x16 .f32) (x7 : Vec Ideal S1x16 .f32)
    (X A : FVec Ideal S50000x128 .f32) (W : FVec Ideal S128x128 .f32) (b : FVec Ideal S1x128 .f32)
    (W1 : FVec Ideal S128x32 .f32) (b1 : FVec Ideal S1x32 .f32) (W2 : FVec Ideal S32x16 .f32) (b2 : FVec Ideal S1x16 .f32)
    (p : Fin 5000) (r : Fin 50000) (q : Fin 16)
    (h0 : ∀ k : Fin 128, x0 (ix2 p k) = X (ix2 r k)) (h1 : ∀ k : Fin 128, x1 (ix2 p k) = A (ix2 r k))
    (h2 : ∀ i, x2 i = W i) (h3 : ∀ i, x3 i = b i) (h4 : ∀ i, x4 i = W1 i) (h5 : ∀ i, x5 i = b1 i)
    (h6 : ∀ i, x6 i = W2 i) (h7 : ∀ i, x7 i = b2 i) :
    k3_pay1 (F := Ideal) x0 x1 x2 x3 x4 x5 x6 x7 (ix2 p q)
      = Cert.Model.classify (F := Ideal) (Cert.Model.nodeLin X A W b) W1 b1 W2 b2 (ix2 r q) := by
  rw [pay_eq, kOut_apply, classify_apply]
  simp only [kHid_apply, kLin_apply, nodeLin_apply, h0, h1, h2, h3, h4, h5, h6, h7]

/-! ## From blocks to the array -/

theorem hz : (![0, 0] : Fin 2 → Nat) = fun _ => 0 := funext fun a => match a with | ⟨0, _⟩ => rfl | ⟨1, _⟩ => rfl

/-- The index maps over the grid: at point t the blocks of x, of aggr and of the output are block t of the rows; every
    other window is its whole array, block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Row p of the block of x at point t is row 5000·t + p of the array. -/
theorem iblk_0 (V : (c : Dev nD) → (b : Ref sig .tc) → Buf (Elt Ideal) ((c : Thread nD τ).loc b)) (c : Dev nD) (t : Fin cfg3.N) (p : Fin 5000) (k : Fin 128) (hr : 5000 * t.val + p.val < 50000) :
    (iblk3 V c 0 t : Vec Ideal S5000x128 .f32) (ix2 p k) = V c main_v21 (ix2 (⟨5000 * t.val + p.val, hr⟩ : Fin 50000) k) := by
  obtain ⟨e00, e01, e10, e11, e20, e21, e30, e31, e40, e41, e50, e51, e60, e61, e70, e71, e80, e81⟩ := idx_facts t
  show V c main_v21 (((cfg3.win 0).blk t).view.emb (ix2 p k)) = V c main_v21 (ix2 (⟨5000 * t.val + p.val, hr⟩ : Fin 50000) k)
  refine congrArg (V c main_v21) (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

/-- Row p of the block of aggr at point t is row 5000·t + p of the array. -/
theorem iblk_1 (V : (c : Dev nD) → (b : Ref sig .tc) → Buf (Elt Ideal) ((c : Thread nD τ).loc b)) (c : Dev nD) (t : Fin cfg3.N) (p : Fin 5000) (k : Fin 128) (hr : 5000 * t.val + p.val < 50000) :
    (iblk3 V c 1 t : Vec Ideal S5000x128 .f32) (ix2 p k) = V c main_v27 (ix2 (⟨5000 * t.val + p.val, hr⟩ : Fin 50000) k) := by
  obtain ⟨e00, e01, e10, e11, e20, e21, e30, e31, e40, e41, e50, e51, e60, e61, e70, e71, e80, e81⟩ := idx_facts t
  show V c main_v27 (((cfg3.win 1).blk t).view.emb (ix2 p k)) = V c main_v27 (ix2 (⟨5000 * t.val + p.val, hr⟩ : Fin 50000) k)
  refine congrArg (V c main_v27) (funext fun a => Fin.ext ?_)
  match a with
  | ⟨0, _⟩ => show win3_1.index t (0 : Fin 2) * 5000 + 1 * p.val = 5000 * t.val + p.val; omega
  | ⟨1, _⟩ => show win3_1.index t (1 : Fin 2) * 128 + 1 * k.val = k.val; omega

/-- The block of W at any point is the whole array. -/
theorem iblk_2 (V : (c : Dev nD) → (b : Ref sig .tc) → Buf (Elt Ideal) ((c : Thread nD τ).loc b)) (c : Dev nD) (t : Fin cfg3.N) (i : S128x128.Idx) :
    (iblk3 V c 2 t : Vec Ideal S128x128 .f32) i = V c main_arg5 i := by
  obtain ⟨e00, e01, e10, e11, e20, e21, e30, e31, e40, e41, e50, e51, e60, e61, e70, e71, e80, e81⟩ := idx_facts t
  show V c main_arg5 (((cfg3.win 2).blk t).view.emb i) = V c main_arg5 i
  refine congrArg (V c main_arg5) (funext fun a => Fin.ext ?_)
  match a with
  | ⟨0, _⟩ => show win3_2.index t (0 : Fin 2) * 128 + 1 * (i 0).val = (i 0).val; omega
  | ⟨1, _⟩ => show win3_2.index t (1 : Fin 2) * 128 + 1 * (i 1).val = (i 1).val; omega

/-- The block of the row b at any point is the whole array. -/
theorem iblk_3 (V : (c : Dev nD) → (b : Ref sig .tc) → Buf (Elt Ideal) ((c : Thread nD τ).loc b)) (c : Dev nD) (t : Fin cfg3.N) (i : S1x128.Idx) :
    (iblk3 V c 3 t : Vec Ideal S1x128 .f32) i = V c main_v28 i := by
  obtain ⟨e00, e01, e10, e11, e20, e21, e30, e31, e40, e41, e50, e51, e60, e61, e70, e71, e80, e81⟩ := idx_facts t
  show V c main_v28 (((cfg3.win 3).blk t).view.emb i) = V c main_v28 i
  refine congrArg (V c main_v28) (funext fun a => Fin.ext ?_)
  match a with
  | ⟨0, _⟩ => show win3_3.index t (0 : Fin 2) * 1 + 1 * (i 0).val = (i 0).val; omega
  | ⟨1, _⟩ => show win3_3.index t (1 : Fin 2) * 128 + 1 * (i 1).val = (i 1).val; omega

/-- The block of W₁ at any point is the whole array. -/
theorem iblk_4 (V : (c : Dev nD) → (b : Ref sig .tc) → Buf (Elt Ideal) ((c : Thread nD τ).loc b)) (c : Dev nD) (t : Fin cfg3.N) (i : S128x32.Idx) :
    (iblk3 V c 4 t : Vec Ideal S128x32 .f32) i = V c main_arg7 i := by
  obtain ⟨e00, e01, e10, e11, e20, e21, e30, e31, e40, e41, e50, e51, e60, e61, e70, e71, e80, e81⟩ := idx_facts t
  show V c main_arg7 (((cfg3.win 4).blk t).view.emb i) = V c main_arg7 i
  refine congrArg (V c main_arg7) (funext fun a => Fin.ext ?_)
  match a with
  | ⟨0, _⟩ => show win3_4.index t (0 : Fin 2) * 128 + 1 * (i 0).val = (i 0).val; omega
  | ⟨1, _⟩ => show win3_4.index t (1 : Fin 2) * 32 + 1 * (i 1).val = (i 1).val; omega

/-- The block of the row b₁ at any point is the whole array. -/
theorem iblk_5 (V : (c : Dev nD) → (b : Ref sig .tc) → Buf (Elt Ideal) ((c : Thread nD τ).loc b)) (c : Dev nD) (t : Fin cfg3.N) (i : S1x32.Idx) :
    (iblk3 V c 5 t : Vec Ideal S1x32 .f32) i = V c main_v29 i := by
  obtain ⟨e00, e01, e10, e11, e20, e21, e30, e31, e40, e41, e50, e51, e60, e61, e70, e71, e80, e81⟩ := idx_facts t
  show V c main_v29 (((cfg3.win 5).blk t).view.emb i) = V c main_v29 i
  refine congrArg (V c main_v29) (funext fun a => Fin.ext ?_)
  match a with
  | ⟨0, _⟩ => show win3_5.index t (0 : Fin 2) * 1 + 1 * (i 0).val = (i 0).val; omega
  | ⟨1, _⟩ => show win3_5.index t (1 : Fin 2) * 32 + 1 * (i 1).val = (i 1).val; omega

/-- The block of W₂ at any point is the whole array. -/
theorem iblk_6 (V : (c : Dev nD) → (b : Ref sig .tc) → Buf (Elt Ideal) ((c : Thread nD τ).loc b)) (c : Dev nD) (t : Fin cfg3.N) (i : S32x16.Idx) :
    (iblk3 V c 6 t : Vec Ideal S32x16 .f32) i = V c main_arg9 i := by
  obtain ⟨e00, e01, e10, e11, e20, e21, e30, e31, e40, e41, e50, e51, e60, e61, e70, e71, e80, e81⟩ := idx_facts t
  show V c main_arg9 (((cfg3.win 6).blk t).view.emb i) = V c main_arg9 i
  refine congrArg (V c main_arg9) (funext fun a => Fin.ext ?_)
  match a with
  | ⟨0, _⟩ => show win3_6.index t (0 : Fin 2) * 32 + 1 * (i 0).val = (i 0).val; omega
  | ⟨1, _⟩ => show win3_6.index t (1 : Fin 2) * 16 + 1 * (i 1).val = (i 1).val; omega

/-- The block of the row b₂ at any point is the whole array. -/
theorem iblk_7 (V : (c : Dev nD) → (b : Ref sig .tc) → Buf (Elt Ideal) ((c : Thread nD τ).loc b)) (c : Dev nD) (t : Fin cfg3.N) (i : S1x16.Idx) :
    (iblk3 V c 7 t : Vec Ideal S1x16 .f32) i = V c main_v30 i := by
  obtain ⟨e00, e01, e10, e11, e20, e21, e30, e31, e40, e41, e50, e51, e60, e61, e70, e71, e80, e81⟩ := idx_facts t
  show V c main_v30 (((cfg3.win 7).blk t).view.emb i) = V c main_v30 i
  refine congrArg (V c main_v30) (funext fun a => Fin.ext ?_)
  match a with
  | ⟨0, _⟩ => show win3_7.index t (0 : Fin 2) * 1 + 1 * (i 0).val = (i 0).val; omega
  | ⟨1, _⟩ => show win3_7.index t (1 : Fin 2) * 16 + 1 * (i 1).val = (i 1).val; omega

/-- Entry (p, q) of the output's block at point t sits at row 5000·t + p of the array. -/
theorem emb_out (t : Fin cfg3.N) (p : Fin 5000) (q : Fin 16) (hr : 5000 * t.val + p.val < 50000) :
    ((cfg3.win 8).blk t).view.emb (ix2 p q) = ix2 (⟨5000 * t.val + p.val, hr⟩ : Fin 50000) q := by
  obtain ⟨e00, e01, e10, e11, e20, e21, e30, e31, e40, e41, e50, e51, e60, e61, e70, e71, e80, e81⟩ := idx_facts t
  funext a; apply Fin.ext
  match a with
  | ⟨0, _⟩ => show win3_8.index t (0 : Fin 2) * 5000 + 1 * p.val = 5000 * t.val + p.val; omega
  | ⟨1, _⟩ => show win3_8.index t (1 : Fin 2) * 16 + 1 * q.val = q.val; omega

/-- What point t writes back is block t of the network of the entered arrays. -/
theorem flushed_eq (V : (c : Dev nD) → (b : Ref sig .tc) → Buf (Elt Ideal) ((c : Thread nD τ).loc b)) (c : Dev nD) (t : Fin cfg3.N) :
    (dat3 (F := Ideal) V c).flushed 8 t = ((cfg3.win 8).blk t).view.read (Elt Ideal)
      (Cert.Model.classify (F := Ideal) (Cert.Model.nodeLin (V c main_v21) (V c main_v27) (V c main_arg5) (V c main_v28))
        (V c main_arg7) (V c main_v29) (V c main_arg9) (V c main_v30)) := by
  show (cfg3.win 8).cut (grid3.coords t) ((dat3 V c).after 8 t) = _
  rw [after3_8]
  unfold out3_8
  rw [View.canon_unit_zero hz]
  simp only [View.ld_unit_zero (S := S5000x128) hz, View.ld_unit_zero (S := S128x128) hz, View.ld_unit_zero (S := S1x128) hz,
    View.ld_unit_zero (S := S128x32) hz, View.ld_unit_zero (S := S1x32) hz, View.ld_unit_zero (S := S32x16) hz,
    View.ld_unit_zero (S := S1x16) hz]
  have ht : t.val < 10 := by have h := t.isLt; have hN : cfg3.N = 10 := N_3; omega
  funext j
  obtain ⟨p, q, rfl⟩ : ∃ (p : Fin 5000) (q : Fin 16), j = ix2 p q := ⟨j 0, j 1, eq_ix2 j⟩
  have hr : 5000 * t.val + p.val < 50000 := by have := p.isLt; omega
  show k3_pay1 (F := Ideal) (iblk3 V c 0 t) (iblk3 V c 1 t) (iblk3 V c 2 t) (iblk3 V c 3 t) (iblk3 V c 4 t) (iblk3 V c 5 t) (iblk3 V c 6 t) (iblk3 V c 7 t) (ix2 p q)
    = (Cert.Model.classify (F := Ideal) (Cert.Model.nodeLin (V c main_v21) (V c main_v27) (V c main_arg5) (V c main_v28))
        (V c main_arg7) (V c main_v29) (V c main_arg9) (V c main_v30)) (((cfg3.win 8).blk t).view.emb (ix2 p q))
  rw [emb_out t p q hr]
  exact pay_apply (iblk3 V c 0 t) (iblk3 V c 1 t) (iblk3 V c 2 t) (iblk3 V c 3 t) (iblk3 V c 4 t) (iblk3 V c 5 t) (iblk3 V c 6 t) (iblk3 V c 7 t)
    (V c main_v21) (V c main_v27) (V c main_arg5) (V c main_v28) (V c main_arg7) (V c main_v29) (V c main_arg9) (V c main_v30)
    p ⟨5000 * t.val + p.val, hr⟩ q (fun k => iblk_0 V c t p k hr) (fun k => iblk_1 V c t p k hr) (iblk_2 V c t) (iblk_3 V c t)
    (iblk_4 V c t) (iblk_5 V c t) (iblk_6 V c t) (iblk_7 V c t)

/-- Row r of the output is in the block of point r / 5000. -/
theorem cover (i : S50000x16.Idx) : ∃ t : Fin cfg3.N, (cfg3.win 8).flush t = true ∧ i ∈ ((cfg3.win 8).blk t).view.set := by
  have h0 : (i 0).val < 50000 := (i 0).isLt
  have h1 : (i 1).val < 16 := (i 1).isLt
  have hN : cfg3.N = 10 := N_3
  have hlt : (i 0).val / 5000 < cfg3.N := by rw [hN]; omega
  refine ⟨⟨(i 0).val / 5000, hlt⟩, flush3_8 _, ?_⟩
  obtain ⟨e00, e01, e10, e11, e20, e21, e30, e31, e40, e41, e50, e51, e60, e61, e70, e71, e80, e81⟩ := idx_facts ⟨(i 0).val / 5000, hlt⟩
  show i ∈ ((View.whole main_v31).slice (win3_8.rect ⟨(i 0).val / 5000, hlt⟩)).set
  rw [View.set_slice_whole, Rect.mem_set_unit]
  intro a
  match a with
  | ⟨0, _⟩ =>
    show win3_8.index ⟨(i 0).val / 5000, hlt⟩ (0 : Fin 2) * 5000 ≤ (i 0).val ∧ (i 0).val < win3_8.index ⟨(i 0).val / 5000, hlt⟩ (0 : Fin 2) * 5000 + 5000
    rw [e80]; show (i 0).val / 5000 * 5000 ≤ (i 0).val ∧ (i 0).val < (i 0).val / 5000 * 5000 + 5000; omega
  | ⟨1, _⟩ =>
    show win3_8.index ⟨(i 0).val / 5000, hlt⟩ (1 : Fin 2) * 16 ≤ (i 1).val ∧ (i 1).val < win3_8.index ⟨(i 0).val / 5000, hlt⟩ (1 : Fin 2) * 16 + 16
    rw [e81]; omega

/-- The output array after the launch, as one function of the eight input arrays as entered. -/
theorem value (V : (c : Dev nD) → (b : Ref sig .tc) → Buf (Elt Ideal) ((c : Thread nD τ).loc b)) (c : Dev nD) :
    (dat3 (F := Ideal) V c).arrAt 8 cfg3.N =
      Cert.Model.classify (F := Ideal) (Cert.Model.nodeLin (V c main_v21) (V c main_v27) (V c main_arg5) (V c main_v28))
        (V c main_arg7) (V c main_v29) (V c main_arg9) (V c main_v30) :=
  (dat3 (F := Ideal) V c).arrAt_eq_of_cover 8 _ (fun t _ => flushed_eq V c t) cover

end Cert.KernelIdeal.Region3

end
-- ==== Proof.KModel.lean ====
/-
  The kernel program's row lookup. Where the reference takes row s of the node features directly,
  the kernel program's lookup also tests each (wrapped) index against 0 ≤ s ≤ 49999 and puts a fill
  value in the rows whose test fails. `takeFill` is that lookup as the program spells it.
-/
import proofs.«416361_j39393440039361_2_alg».proof.Proof.Gen.KernelIdeal
import proofs.«416361_j39393440039361_2_alg».proof.Proof.Model

set_option maxRecDepth 16384

noncomputable section

namespace Cert.KModel

open Idealize.ShloMosaic Idealize.ShloMosaic.TcCoe Idealize.SL.Sem
open Cert.KernelIdeal Cert.KernelIdeal.Gen

variable {F : FTy → Type} [FloatOps F]

/-- One bit per edge: 0 ≤ s k ≤ 49999 (signed). -/
def inRangeBits (s : (⟨S600000, .i32⟩ : BufTy).Contents (Elt F)) : (⟨S600000, .i1⟩ : BufTy).Contents (Elt F) :=
  Host.reduce IntOp.andi
    (andi (cmpi .sge (broadcastInDim S600000x1 ![0] bcast_S600000_S600000x1_0 s) (broadcastInDim S600000x1 ![] bcast_S_S600000x1 (constantI S_ 32 0#32)))
      (cmpi .sle (broadcastInDim S600000x1 ![0] bcast_S600000_S600000x1_0 s)
        (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- Row k is row (s k) of x where the bit of k is set, and the fill word's value elsewhere. -/
def takeFill (x : (⟨S50000x128, .f32⟩ : BufTy).Contents (Elt F)) (s : (⟨S600000, .i32⟩ : BufTy).Contents (Elt F)) : (⟨S600000x128, .f32⟩ : BufTy).Contents (Elt F) :=
  select (broadcastInDim S600000x128 ![0] bcast_S600000_S600000x128_0 (inRangeBits s))
    (Host.gather gather_S50000x128_S600000x1_S600000x128_1_0_n_n_0_1_1128 x (broadcastInDim S600000x1 ![0] bcast_S600000_S600000x1_0 s))
    (broadcastInDim S600000x128 ![] bcast_S_S600000x128 (constant S_ .f32 0x7FC00000#32))

end Cert.KModel

end
-- ==== Proof.Entry01.lean ====
/-
  What the first two launches find in their input arrays, read back through the run: an argument of
  the program is still what it was at the start (nothing before the launch writes it); a bias row is the
  bias vector re-laid as [1, 128]; and the second launch's aggregated-messages array is the host lines
  between the two launches applied to the node features, the edge list and the first launch's output.
-/
import proofs.«416361_j39393440039361_2_alg».proof.Proof.Gen.KernelIdeal.Frame
import proofs.«416361_j39393440039361_2_alg».proof.Proof.KModel
import Idealize.ShloMosaic.Lib.StableHlo.Run

set_option maxRecDepth 16384

noncomputable section

namespace Cert.KernelIdeal.Entry01

open Idealize.ShloMosaic Idealize.ShloMosaic.TcCoe Idealize.SL.Sem
open Cert.KernelIdeal Cert.KernelIdeal.Gen
open Idealize.ShloMosaic.StableHlo

variable {F : FTy → Type} [FloatOps F]
variable (m : (ℓ : Loc nD τ sig) → Buf (Elt F) ℓ) (ρ : Dev nD → PrngReg) (c : Dev nD)

/-! ## Entering the edge projection (contents `W1`) -/

theorem edge_attr_at0 : W1 m ρ c (Proc.devRef .tc main_arg2) = (m ((c : Thread nD τ).loc main_arg2)) := by
  show StableHlo.after hostOps0 (W0 m ρ c) (Proc.devRef .tc main_arg2) = _
  after_results
theorem edge_w_at0 : W1 m ρ c (Proc.devRef .tc main_arg3) = (m ((c : Thread nD τ).loc main_arg3)) := by
  show StableHlo.after hostOps0 (W0 m ρ c) (Proc.devRef .tc main_arg3) = _
  after_results
theorem edge_brow_at0 : W1 m ρ c (Proc.devRef .tc main_v4) = shapeCast S1x128 (m ((c : Thread nD τ).loc main_arg4)) shapeCasts_S128_S1x128 := by
  show StableHlo.after hostOps0 (W0 m ρ c) (Proc.devRef .tc main_v4) = _
  after_results
  rfl

/-! ## Entering the first node update (contents `W6`); `W2` is what the edge projection left -/

/-- The node features come through the four host stretches before the first node update untouched. -/
theorem W6_keeps_arg0 : W6 m ρ c (Proc.devRef .tc main_arg0) = W2 m ρ c (Proc.devRef .tc main_arg0) := by
  show StableHlo.after hostOps1_3 (StableHlo.after hostOps1_2 (StableHlo.after hostOps1_1 (StableHlo.after hostOps1 (W2 m ρ c)))) (Proc.devRef .tc main_arg0) = _
  after_results

/-- The edge projection does not own the node features, and nothing before it writes them. -/
theorem W2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

theorem x_at1 : W6 m ρ c (Proc.devRef .tc main_arg0) = (m ((c : Thread nD τ).loc main_arg0)) :=
  (W6_keeps_arg0 m ρ c).trans (W2_arg0 m ρ c)

/-- The row of sources is cut from the edge list before the edge projection, which does not own it. -/
theorem W2_v1 : W2 m ρ c (Proc.devRef .tc main_v1) = Cert.Model.srcRow (m ((c : Thread nD τ).loc main_arg1)) := by
  rw [W2_of_ne m ρ c main_v1 (by decide)]
  show StableHlo.after hostOps0 (W0 m ρ c) (Proc.devRef .tc main_v1) = _
  after_results
  rfl
/-- Likewise the row of targets. -/
theorem W2_v3 : W2 m ρ c (Proc.devRef .tc main_v3) = Cert.Model.dstRow (m ((c : Thread nD τ).loc main_arg1)) := by
  rw [W2_of_ne m ρ c main_v3 (by decide)]
  show StableHlo.after hostOps0 (W0 m ρ c) (Proc.devRef .tc main_v3) = _
  after_results
  rfl

/-! ### One host stretch at a time, from any contents `V` -/

section Steps
variable (V : Valuation τ sig (Elt F))

/-- The last stretch adds the messages' rows into the rows of their targets, from zero. -/
theorem scatter_step : StableHlo.after hostOps1_3 V (Proc.devRef .tc main_v11)
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (V (Proc.devRef .tc main_v3)))
        (V (Proc.devRef .tc main_v8)) := by
  after_results

/-- The stretch before it is the relu of the messages. -/
theorem relu_step : StableHlo.after hostOps1_2 V (Proc.devRef .tc main_v8)
    = maximumf (V (Proc.devRef .tc main_v7)) (broadcastInDim S600000x128 ![] bcast_S_S600000x128 (constant S_ .f32 0x00000000#32)) := by
  after_results
  rfl
theorem relu_keeps_v3 : StableHlo.after hostOps1_2 V (Proc.devRef .tc main_v3) = V (Proc.devRef .tc main_v3) := by
  after_results

/-- The stretch before that adds the projected edges to the looked-up rows. -/
theorem add_step : StableHlo.after hostOps1_1 V (Proc.devRef .tc main_v7)
    = addf (V (Proc.devRef .tc main_v6)) (V (Proc.devRef .tc main_v5)) := by
  after_results
theorem add_keeps_v3 : StableHlo.after hostOps1_1 V (Proc.devRef .tc main_v3) = V (Proc.devRef .tc main_v3) := by
  after_results

theorem take_keeps_v3 : StableHlo.after hostOps1 V (Proc.devRef .tc main_v3) = V (Proc.devRef .tc main_v3) := by
  after_results
theorem take_keeps_v5 : StableHlo.after hostOps1 V (Proc.devRef .tc main_v5) = V (Proc.devRef .tc main_v5) := by
  after_results

/-- The first stretch is the row lookup: the sources wrapped, each tested against the range, the rows taken,
    the fill value put where the test fails. -/
theorem take_step : StableHlo.after hostOps1 V (Proc.devRef .tc main_v6)
    = Cert.KModel.takeFill (V (Proc.devRef .tc main_arg0)) (Cert.Model.wrap (V (Proc.devRef .tc main_v1))) := by
  after_results_simp
  simp only [TRef.ofBuf, TRef.toBuf, cast_eq]
  unfold Cert.KModel.takeFill Cert.KModel.inRangeBits Cert.Model.wrap
  rfl
end Steps

/-- The relu'd messages entering the last stretch, over what the edge projection left. -/
theorem W5_v8 : W5 m ρ c (Proc.devRef .tc main_v8)
    = maximumf (addf (Cert.KModel.takeFill (W2 m ρ c (Proc.devRef .tc main_arg0)) (Cert.Model.wrap (W2 m ρ c (Proc.devRef .tc main_v1))))
        (W2 m ρ c (Proc.devRef .tc main_v5))) (broadcastInDim S600000x128 ![] bcast_S_S600000x128 (constant S_ .f32 0x00000000#32)) := by
  show StableHlo.after hostOps1_2 (W4 m ρ c) (Proc.devRef .tc main_v8) = _
  rw [relu_step]
  show maximumf (StableHlo.after hostOps1_1 (W3 m ρ c) (Proc.devRef .tc main_v7)) _ = _
  rw [add_step]
  show maximumf (addf (StableHlo.after hostOps1 (W2 m ρ c) (Proc.devRef .tc main_v6)) (StableHlo.after hostOps1 (W2 m ρ c) (Proc.devRef .tc main_v5))) _ = _
  rw [take_step, take_keeps_v5]

/-- The row of targets entering the last stretch is still what the edge projection left. -/
theorem W5_v3 : W5 m ρ c (Proc.devRef .tc main_v3) = W2 m ρ c (Proc.devRef .tc main_v3) := by
  show StableHlo.after hostOps1_2 (W4 m ρ c) (Proc.devRef .tc main_v3) = _
  rw [relu_keeps_v3]
  show StableHlo.after hostOps1_1 (W3 m ρ c) (Proc.devRef .tc main_v3) = _
  rw [add_keeps_v3]
  show StableHlo.after hostOps1 (W2 m ρ c) (Proc.devRef .tc main_v3) = _
  rw [take_keeps_v3]

theorem aggr_at1 : W6 m ρ c (Proc.devRef .tc main_v11)
    = Cert.Model.sumMsgs (Cert.Model.dstRow (m ((c : Thread nD τ).loc main_arg1))) (Cert.KModel.takeFill (m ((c : Thread nD τ).loc main_arg0)) (Cert.Model.wrap (Cert.Model.srcRow (m ((c : Thread nD τ).loc main_arg1))))) (W2 m ρ c (Proc.devRef .tc main_v5)) := by
  show StableHlo.after hostOps1_3 (W5 m ρ c) (Proc.devRef .tc main_v11) = _
  rw [scatter_step, W5_v8, W5_v3, W2_v1, W2_v3, W2_arg0]
  rfl

theorem w_at1 : W6 m ρ c (Proc.devRef .tc main_arg5) = (m ((c : Thread nD τ).loc main_arg5)) := by
  show StableHlo.after hostOps1_3 (StableHlo.after hostOps1_2 (StableHlo.after hostOps1_1 (StableHlo.after hostOps1 (W2 m ρ c)))) (Proc.devRef .tc main_arg5) = _
  after_results
  rw [W2_of_ne m ρ c main_arg5 (by decide)]
  show StableHlo.after hostOps0 (W0 m ρ c) (Proc.devRef .tc main_arg5) = _
  after_results
theorem brow_at1 : W6 m ρ c (Proc.devRef .tc main_v12) = shapeCast S1x128 (m ((c : Thread nD τ).loc main_arg6)) shapeCasts_S128_S1x128 := by
  show StableHlo.after hostOps1_3 (StableHlo.after hostOps1_2 (StableHlo.after hostOps1_1 (StableHlo.after hostOps1 (W2 m ρ c)))) (Proc.devRef .tc main_v12) = _
  after_results
  rw [W2_of_ne m ρ c main_arg6 (by decide)]
  show (fun i => shapeCast S1x128 (StableHlo.after hostOps0 (W0 m ρ c) (Proc.devRef .tc main_arg6)) shapeCasts_S128_S1x128 i) = _
  after_results

end Cert.KernelIdeal.Entry01

end
-- ==== Proof.Entry23.lean ====
/-
  What the last two launches find in their input arrays, read back through the run: the node features
  are the previous launch's output; the aggregated-messages array is the host lines before the launch
  applied to those features, the edge list and the edge projection's output (which no later line
  writes); the weights are the program's arguments and each bias row its bias vector re-laid as a row.
-/
import proofs.«416361_j39393440039361_2_alg».proof.Proof.Gen.KernelIdeal.Frame
import proofs.«416361_j39393440039361_2_alg».proof.Proof.KModel
import Idealize.ShloMosaic.Lib.StableHlo.Run

set_option maxRecDepth 16384

noncomputable section

namespace Cert.KernelIdeal.Entry23

open Idealize.ShloMosaic Idealize.ShloMosaic.TcCoe Idealize.SL.Sem
open Cert.KernelIdeal Cert.KernelIdeal.Gen
open Idealize.ShloMosaic.StableHlo

variable {F : FTy → Type} [FloatOps F]
variable (m : (ℓ : Loc nD τ sig) → Buf (Elt F) ℓ) (ρ : Dev nD → PrngReg) (c : Dev nD)

/-! ## Buffers no host line of a stretch writes keep their contents across it -/

section Keep

/-- Across the four host stretches before the second node update. -/
local macro "keep2" : tactic => `(tactic| (dsimp only [W11, W10, W9, W8]; after_results))
/-- Across the four host stretches before the last launch. -/
local macro "keep3" : tactic => `(tactic| (dsimp only [W16, W15, W14, W13]; after_results))
/-- Across the four host stretches before the first node update. -/
local macro "keep1" : tactic => `(tactic| (dsimp only [W6, W5, W4, W3]; after_results))

theorem arg5_keep3 : W16 m ρ c (Proc.devRef .tc main_arg5) = W12 m ρ c (Proc.devRef .tc main_arg5) := by keep3
theorem arg8_keep3 : W16 m ρ c (Proc.devRef .tc main_arg8) = W12 m ρ c (Proc.devRef .tc main_arg8) := by keep3
theorem arg10_keep3 : W16 m ρ c (Proc.devRef .tc main_arg10) = W12 m ρ c (Proc.devRef .tc main_arg10) := by keep3
theorem arg6_keep3 : W16 m ρ c (Proc.devRef .tc main_arg6) = W12 m ρ c (Proc.devRef .tc main_arg6) := by keep3

theorem v1_keep2 : W11 m ρ c (Proc.devRef .tc main_v1) = W7 m ρ c (Proc.devRef .tc main_v1) := by keep2
theorem v3_keep2 : W11 m ρ c (Proc.devRef .tc main_v3) = W7 m ρ c (Proc.devRef .tc main_v3) := by keep2
theorem v5_keep2 : W11 m ρ c (Proc.devRef .tc main_v5) = W7 m ρ c (Proc.devRef .tc main_v5) := by keep2
theorem arg6_keep2 : W11 m ρ c (Proc.devRef .tc main_arg6) = W7 m ρ c (Proc.devRef .tc main_arg6) := by keep2

theorem v1_keep1 : W6 m ρ c (Proc.devRef .tc main_v1) = W2 m ρ c (Proc.devRef .tc main_v1) := by keep1
theorem v3_keep1 : W6 m ρ c (Proc.devRef .tc main_v3) = W2 m ρ c (Proc.devRef .tc main_v3) := by keep1
theorem v5_keep1 : W6 m ρ c (Proc.devRef .tc main_v5) = W2 m ρ c (Proc.devRef .tc main_v5) := by keep1

end Keep

/-! ## The edge list's two rows, written once before the first launch -/

theorem v1_at1 : W1 m ρ c (Proc.devRef .tc main_v1) = Cert.Model.srcRow (m ((c : Thread nD τ).loc main_arg1)) := by
  dsimp only [W1]
  after_results
  rfl
theorem v3_at1 : W1 m ρ c (Proc.devRef .tc main_v3) = Cert.Model.dstRow (m ((c : Thread nD τ).loc main_arg1)) := by
  dsimp only [W1]
  after_results
  rfl

theorem v1_at7 : W7 m ρ c (Proc.devRef .tc main_v1) = Cert.Model.srcRow (m ((c : Thread nD τ).loc main_arg1)) :=
  (W7_of_ne m ρ c main_v1 (by decide)).trans ((v1_keep1 m ρ c).trans ((W2_of_ne m ρ c main_v1 (by decide)).trans (v1_at1 m ρ c)))
theorem v3_at7 : W7 m ρ c (Proc.devRef .tc main_v3) = Cert.Model.dstRow (m ((c : Thread nD τ).loc main_arg1)) :=
  (W7_of_ne m ρ c main_v3 (by decide)).trans ((v3_keep1 m ρ c).trans ((W2_of_ne m ρ c main_v3 (by decide)).trans (v3_at1 m ρ c)))
theorem v5_at7 : W7 m ρ c (Proc.devRef .tc main_v5) = W2 m ρ c (Proc.devRef .tc main_v5) :=
  (W7_of_ne m ρ c main_v5 (by decide)).trans (v5_keep1 m ρ c)

theorem v1_at12 : W12 m ρ c (Proc.devRef .tc main_v1) = Cert.Model.srcRow (m ((c : Thread nD τ).loc main_arg1)) :=
  (W12_of_ne m ρ c main_v1 (by decide)).trans ((v1_keep2 m ρ c).trans (v1_at7 m ρ c))
theorem v3_at12 : W12 m ρ c (Proc.devRef .tc main_v3) = Cert.Model.dstRow (m ((c : Thread nD τ).loc main_arg1)) :=
  (W12_of_ne m ρ c main_v3 (by decide)).trans ((v3_keep2 m ρ c).trans (v3_at7 m ρ c))
theorem v5_at12 : W12 m ρ c (Proc.devRef .tc main_v5) = W2 m ρ c (Proc.devRef .tc main_v5) :=
  (W12_of_ne m ρ c main_v5 (by decide)).trans ((v5_keep2 m ρ c).trans (v5_at7 m ρ c))

/-! ## The arguments: as launched at the end of the run, hence at every boundary they pass unwritten -/

theorem arg5_at16 : W16 m ρ c (Proc.devRef .tc main_arg5) = m ((c : Thread nD τ).loc main_arg5) :=
  ((W17_arr m ρ c 2).trans (((dat3 (V16 m ρ) c).arrAt_in 2 rfl _).trans (A_eq3 (V16 m ρ) c 2))).symm.trans (W17_main_arg5 m ρ c)
theorem arg7_at16 : W16 m ρ c (Proc.devRef .tc main_arg7) = m ((c : Thread nD τ).loc main_arg7) :=
  ((W17_arr m ρ c 4).trans (((dat3 (V16 m ρ) c).arrAt_in 4 rfl _).trans (A_eq3 (V16 m ρ) c 4))).symm.trans (W17_main_arg7 m ρ c)
theorem arg9_at16 : W16 m ρ c (Proc.devRef .tc main_arg9) = m ((c : Thread nD τ).loc main_arg9) :=
  ((W17_arr m ρ c 6).trans (((dat3 (V16 m ρ) c).arrAt_in 6 rfl _).trans (A_eq3 (V16 m ρ) c 6))).symm.trans (W17_main_arg9 m ρ c)
theorem arg6_at16 : W16 m ρ c (Proc.devRef .tc main_arg6) = m ((c : Thread nD τ).loc main_arg6) :=
  (W17_of_ne m ρ c main_arg6 (by decide)).symm.trans (W17_main_arg6 m ρ c)
theorem arg8_at16 : W16 m ρ c (Proc.devRef .tc main_arg8) = m ((c : Thread nD τ).loc main_arg8) :=
  (W17_of_ne m ρ c main_arg8 (by decide)).symm.trans (W17_main_arg8 m ρ c)
theorem arg10_at16 : W16 m ρ c (Proc.devRef .tc main_arg10) = m ((c : Thread nD τ).loc main_arg10) :=
  (W17_of_ne m ρ c main_arg10 (by decide)).symm.trans (W17_main_arg10 m ρ c)
theorem arg5_at12 : W12 m ρ c (Proc.devRef .tc main_arg5) = m ((c : Thread nD τ).loc main_arg5) :=
  (arg5_keep3 m ρ c).symm.trans (arg5_at16 m ρ c)
theorem arg6_at12 : W12 m ρ c (Proc.devRef .tc main_arg6) = m ((c : Thread nD τ).loc main_arg6) :=
  (arg6_keep3 m ρ c).symm.trans (arg6_at16 m ρ c)
theorem arg8_at12 : W12 m ρ c (Proc.devRef .tc main_arg8) = m ((c : Thread nD τ).loc main_arg8) :=
  (arg8_keep3 m ρ c).symm.trans (arg8_at16 m ρ c)
theorem arg10_at12 : W12 m ρ c (Proc.devRef .tc main_arg10) = m ((c : Thread nD τ).loc main_arg10) :=
  (arg10_keep3 m ρ c).symm.trans (arg10_at16 m ρ c)
theorem arg5_at11 : W11 m ρ c (Proc.devRef .tc main_arg5) = m ((c : Thread nD τ).loc main_arg5) :=
  ((W12_arr m ρ c 2).trans (((dat2 (V11 m ρ) c).arrAt_in 2 rfl _).trans (A_eq2 (V11 m ρ) c 2))).symm.trans (arg5_at12 m ρ c)
theorem arg6_at7 : W7 m ρ c (Proc.devRef .tc main_arg6) = m ((c : Thread nD τ).loc main_arg6) :=
  (arg6_keep2 m ρ c).symm.trans ((W12_of_ne m ρ c main_arg6 (by decide)).symm.trans (arg6_at12 m ρ c))

/-! ## Entering the second node update (contents `W11`); `W7` is what the first left, `W2` what the edge projection left -/

theorem x_at2 : W11 m ρ c (Proc.devRef .tc main_v13) = W7 m ρ c (Proc.devRef .tc main_v13) := by
  dsimp only [W11, W10, W9, W8]; after_results
theorem aggr_at2 : W11 m ρ c (Proc.devRef .tc main_v19)
    = Cert.Model.sumMsgs (Cert.Model.dstRow (m ((c : Thread nD τ).loc main_arg1))) (Cert.KModel.takeFill (W7 m ρ c (Proc.devRef .tc main_v13)) (Cert.Model.wrap (Cert.Model.srcRow (m ((c : Thread nD τ).loc main_arg1))))) (W2 m ρ c (Proc.devRef .tc main_v5)) := by
  dsimp only [W11, W10, W9, W8]
  after_results_simp
  simp only [TRef.ofBuf, TRef.toBuf, cast_eq]
  rw [v1_at7 m ρ c, v3_at7 m ρ c, v5_at7 m ρ c]
  rfl
theorem w_at2 : W11 m ρ c (Proc.devRef .tc main_arg5) = (m ((c : Thread nD τ).loc main_arg5)) := arg5_at11 m ρ c
theorem brow_at2 : W11 m ρ c (Proc.devRef .tc main_v20) = shapeCast S1x128 (m ((c : Thread nD τ).loc main_arg6)) shapeCasts_S128_S1x128 := by
  dsimp only [W11, W10, W9, W8]
  after_results
  rw [arg6_at7 m ρ c]
  rfl

/-! ## Entering the last launch (contents `W16`); `W12` is what the second node update left -/

theorem x_at3 : W16 m ρ c (Proc.devRef .tc main_v21) = W12 m ρ c (Proc.devRef .tc main_v21) := by
  dsimp only [W16, W15, W14, W13]; after_results
theorem aggr_at3 : W16 m ρ c (Proc.devRef .tc main_v27)
    = Cert.Model.sumMsgs (Cert.Model.dstRow (m ((c : Thread nD τ).loc main_arg1))) (Cert.KModel.takeFill (W12 m ρ c (Proc.devRef .tc main_v21)) (Cert.Model.wrap (Cert.Model.srcRow (m ((c : Thread nD τ).loc main_arg1))))) (W2 m ρ c (Proc.devRef .tc main_v5)) := by
  dsimp only [W16, W15, W14, W13]
  after_results_simp
  simp only [TRef.ofBuf, TRef.toBuf, cast_eq]
  rw [v1_at12 m ρ c, v3_at12 m ρ c, v5_at12 m ρ c]
  rfl
theorem w_at3 : W16 m ρ c (Proc.devRef .tc main_arg5) = (m ((c : Thread nD τ).loc main_arg5)) := arg5_at16 m ρ c
theorem brow_at3 : W16 m ρ c (Proc.devRef .tc main_v28) = shapeCast S1x128 (m ((c : Thread nD τ).loc main_arg6)) shapeCasts_S128_S1x128 := by
  dsimp only [W16, W15, W14, W13]
  after_results
  rw [arg6_at12 m ρ c]
  rfl
theorem w1_at3 : W16 m ρ c (Proc.devRef .tc main_arg7) = (m ((c : Thread nD τ).loc main_arg7)) := arg7_at16 m ρ c
theorem b1row_at3 : W16 m ρ c (Proc.devRef .tc main_v29) = shapeCast S1x32 (m ((c : Thread nD τ).loc main_arg8)) shapeCasts_S32_S1x32 := by
  dsimp only [W16, W15, W14, W13]
  after_results
  rw [arg8_at12 m ρ c]
  rfl
theorem w2_at3 : W16 m ρ c (Proc.devRef .tc main_arg9) = (m ((c : Thread nD τ).loc main_arg9)) := arg9_at16 m ρ c
theorem b2row_at3 : W16 m ρ c (Proc.devRef .tc main_v30) = shapeCast S1x16 (m ((c : Thread nD τ).loc main_arg10)) shapeCasts_S16_S1x16 := by
  dsimp only [W16, W15, W14, W13]
  after_results
  rw [arg10_at12 m ρ c]
  rfl

end Cert.KernelIdeal.Entry23

end
-- ==== Proof.TakeMask.lean ====
/-
  Under the precondition every source index lies in [-50000, 50000), so after the wrap it lies in
  [0, 49999]: the kernel program's in-range test holds on every edge, its fill value is never used,
  and its row lookup is the plain one.
-/
import proofs.«416361_j39393440039361_2_alg».proof.Defs
import proofs.«416361_j39393440039361_2_alg».proof.Proof.Gen.Pre_finite_inputs
import proofs.«416361_j39393440039361_2_alg».proof.Proof.KModel
import Idealize.ShloMosaic.Lib.StableHlo.Predicate
import Idealize.ShloMosaic.Lib.ReduceAll
import Idealize.ShloMosaic.Lib.ValueIdx

noncomputable section

namespace Cert.TakeMask

open Idealize.ShloMosaic Idealize.ShloMosaic.TcCoe Idealize.SL.Sem
open Cert.KernelIdeal Cert.KernelIdeal.Gen

/-- The scalar shape has one index. -/
instance : Subsingleton Cert.Pre_finite_inputs.S_.Idx := ⟨fun a b => funext fun d => d.elim0⟩

/-- A reduction by `and` from 1 of an operand that is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  have e : IntOp.andi 1#1 1#1 = 1#1 := by decide
  induction l with
  | nil => rfl
  | cons a l ih => rw [List.foldl_cons, hx a, e]; exact ih

/-- A word in [-50000, 50000), 50000 added where it is negative, lies in [0, 49999] (signed). -/
theorem wrap_word (s : BitVec 32) (hlo : IntOp.cmpi .sge s 4294917296#32 = 1#1) (hhi : IntOp.cmpi .slt s 50000#32 = 1#1) :
    IntOp.cmpi .sge (Scalar.select (IntOp.cmpi .slt s 0#32) (IntOp.addi s 50000#32) s) 0#32 = 1#1
      ∧ IntOp.cmpi .sle (Scalar.select (IntOp.cmpi .slt s 0#32) (IntOp.addi s 50000#32) s) 49999#32 = 1#1 := by
  have h0 : (0#32 : BitVec 32).toInt = 0 := by decide
  have h1 : (50000#32 : BitVec 32).toInt = 50000 := by decide
  have h2 : (4294917296#32 : BitVec 32).toInt = -50000 := by decide
  have h3 : (49999#32 : BitVec 32).toInt = 49999 := by decide
  unfold IntOp.cmpi at hlo hhi
  rw [StableHlo.Predicate.ofBool_eq_one_iff] at hlo hhi
  simp only [BitVec.sle, BitVec.slt, decide_eq_true_eq, h1, h2] at hlo hhi
  by_cases hn : s.toInt < 0
  · have hc : IntOp.cmpi .slt s 0#32 = 1#1 := by
      unfold IntOp.cmpi
      rw [StableHlo.Predicate.ofBool_eq_one_iff]
      simp only [BitVec.slt, decide_eq_true_eq, h0]; exact hn
    have ha : (IntOp.addi s 50000#32).toInt = s.toInt + 50000 := by
      unfold IntOp.addi
      rw [BitVec.toInt_add, h1, Int.bmod_def]
      omega
    rw [hc, ValueIdx.select_one]
    unfold IntOp.cmpi
    simp only [StableHlo.Predicate.ofBool_eq_one_iff, BitVec.sle, decide_eq_true_eq, h0, h3, ha]
    omega
  · have hc : IntOp.cmpi .slt s 0#32 = 0#1 := by
      apply ValueIdx.eq_zero_of_ne_one
      unfold IntOp.cmpi
      rw [StableHlo.Predicate.ofBool_eq_one_iff]
      simp only [BitVec.slt, decide_eq_true_eq, h0]; exact hn
    rw [hc, ValueIdx.select_zero]
    unfold IntOp.cmpi
    simp only [StableHlo.Predicate.ofBool_eq_one_iff, BitVec.sle, decide_eq_true_eq, h0, h3]
    omega

/-- The wrapped index vector at an edge, as words: both halves of the in-range test hold. -/
theorem wrap_bits (s : IVec S600000 32)
    (hrange : ∀ i, IntOp.cmpi .sge (s i) 4294917296#32 = 1#1 ∧ IntOp.cmpi .slt (s i) 50000#32 = 1#1) (k : S600000.Idx) :
    IntOp.cmpi .sge (Cert.Model.wrap (F := Ideal) s k) 0#32 = 1#1 ∧ IntOp.cmpi .sle (Cert.Model.wrap (F := Ideal) s k) 49999#32 = 1#1 :=
  wrap_word (s k) (hrange k).1 (hrange k).2
/-- With the precondition, the kernel program's row lookup at the wrapped sources is the plain lookup. -/
theorem take_of_pre (m : (ℓ : Loc nD τ sig) → Buf (Elt Ideal) ℓ) (hpre : Cert.Pre_KernelIdeal (hPre_finite_inputs := Cert.Pre_finite_inputs.Gen.facts) m)
    (c : Dev nD) (x : FVec Ideal S50000x128 .f32) :
    Cert.KModel.takeFill (F := Ideal) x (Cert.Model.wrap (Cert.Model.srcRow (m ((c : Thread nD τ).loc main_arg1))))
      = Cert.Model.takeRows (F := Ideal) x (Cert.Model.wrap (Cert.Model.srcRow (m ((c : Thread nD τ).loc main_arg1)))) := by
  -- the precondition's last conjunct: every source index is in [-50000, 50000)
  have h := congrFun (hpre c) ValueIdx.ix0
  have h3 : Cert.Pre_finite_inputs.fn_part3 (F := Ideal) _ _ _ _ ValueIdx.ix0 = 1#1 := h
  unfold Cert.Pre_finite_inputs.fn_part3 at h3
  dsimp only at h3
  have h58 := (IntOp.andi_eq_one.1 h3).2
  have hrange : ∀ i, IntOp.cmpi .sge (Cert.Model.srcRow (F := Ideal) (m ((c : Thread nD τ).loc main_arg1)) i) 4294917296#32 = 1#1
      ∧ IntOp.cmpi .slt (Cert.Model.srcRow (F := Ideal) (m ((c : Thread nD τ).loc main_arg1)) i) 50000#32 = 1#1 :=
    fun i => IntOp.andi_eq_one.1 (Host.reduce_andi_all _ _ _ _ _ h58 i)
  clear h58 h3 h
  generalize Cert.Model.srcRow (F := Ideal) (m ((c : Thread nD τ).loc main_arg1)) = s at hrange ⊢
  -- so each bit of the in-range test on the wrapped indices is one
  have hbits : ∀ k, Cert.KModel.inRangeBits (F := Ideal) (Cert.Model.wrap s) k = 1#1 := by
    intro k
    unfold Cert.KModel.inRangeBits
    refine reduce_andi_of_all _ _ _ _ k rfl (fun i => ?_)
    show IntOp.andi (IntOp.cmpi .sge (Cert.Model.wrap (F := Ideal) s _) 0#32) (IntOp.cmpi .sle (Cert.Model.wrap (F := Ideal) s _) 49999#32) = 1#1
    exact IntOp.andi_eq_one.2 (wrap_bits s hrange _)
  -- the mask is all ones: the select keeps the looked-up row
  unfold Cert.KModel.takeFill Cert.Model.takeRows Cert.Model.col
  funext j
  rw [ValueIdx.select_apply]
  have hm : broadcastInDim S600000x128 ![0] bcast_S600000_S600000x128_0 (Cert.KModel.inRangeBits (F := Ideal) (Cert.Model.wrap s)) j = 1#1 := hbits _
  rw [hm, ValueIdx.select_one]
  rfl

end Cert.TakeMask

end
-- ==== Proof.KernelValue.lean ====
/-
  The kernel program's result as a function of its arguments. The run leaves the result array at the
  last launch's output; each launch's output is the Model function of what the launch found in its
  input arrays (Region0 … Region3); what it found is the host lines before it applied to the earlier
  outputs and the arguments (Entry01, Entry23); and under the precondition the program's row lookup is
  the plain one (TakeMask). Composed, the result is the network of Model.lean at the arguments. A bias
  reaches its launch re-laid from [n] to [1, n], which reads the same entries as spreading it along a
  new leading axis of size one.
-/
import proofs.«416361_j39393440039361_2_alg».proof.Proof.Gen.KernelIdeal.Frame
import proofs.«416361_j39393440039361_2_alg».proof.Proof.Region0
import proofs.«416361_j39393440039361_2_alg».proof.Proof.Region1
import proofs.«416361_j39393440039361_2_alg».proof.Proof.Region2
import proofs.«416361_j39393440039361_2_alg».proof.Proof.Region3
import proofs.«416361_j39393440039361_2_alg».proof.Proof.Entry01
import proofs.«416361_j39393440039361_2_alg».proof.Proof.Entry23
import proofs.«416361_j39393440039361_2_alg».proof.Proof.TakeMask
import Idealize.ShloMosaic.Lib.Pipeline.Value

set_option maxRecDepth 16384

noncomputable section

namespace Cert.KernelIdeal.KernelValue

open Idealize.ShloMosaic Idealize.ShloMosaic.TcCoe Idealize.SL.Sem
open Cert.KernelIdeal Cert.KernelIdeal.Gen

/-! ## A vector re-laid as one row -/

theorem row128_eq {F : FTy → Type} [FloatOps F] (b : FVec F S128 .f32) :
    shapeCast S1x128 b shapeCasts_S128_S1x128 = Cert.Model.row128 b := by
  funext j
  unfold Cert.Model.row128
  rw [shapeCast_addUnit_apply (n := 1) (d := ![128]) b shapeCasts_S128_S1x128 j]
  exact (broadcastInDim_apply _ _ b j (fun a => j a.succ) (fun a => match a with
    | ⟨0, _⟩ => by show (j 1).val = if (128 : Nat) = 1 then 0 else (j 1).val; rw [if_neg (by decide)])).symm

theorem row32_eq {F : FTy → Type} [FloatOps F] (b : FVec F S32 .f32) :
    shapeCast S1x32 b shapeCasts_S32_S1x32 = Cert.Model.row32 b := by
  funext j
  unfold Cert.Model.row32
  rw [shapeCast_addUnit_apply (n := 1) (d := ![32]) b shapeCasts_S32_S1x32 j]
  exact (broadcastInDim_apply _ _ b j (fun a => j a.succ) (fun a => match a with
    | ⟨0, _⟩ => by show (j 1).val = if (32 : Nat) = 1 then 0 else (j 1).val; rw [if_neg (by decide)])).symm

theorem row16_eq {F : FTy → Type} [FloatOps F] (b : FVec F S16 .f32) :
    shapeCast S1x16 b shapeCasts_S16_S1x16 = Cert.Model.row16 b := by
  funext j
  unfold Cert.Model.row16
  rw [shapeCast_addUnit_apply (n := 1) (d := ![16]) b shapeCasts_S16_S1x16 j]
  exact (broadcastInDim_apply _ _ b j (fun a => j a.succ) (fun a => match a with
    | ⟨0, _⟩ => by show (j 1).val = if (16 : Nat) = 1 then 0 else (j 1).val; rw [if_neg (by decide)])).symm

variable (m : (ℓ : Loc nD τ sig) → Buf (Elt Ideal) ℓ) (ρ : Dev nD → PrngReg) (c : Dev nD)

/-! ## Each bias row as its launch finds it -/

theorem brow0 : W1 m ρ c (Proc.devRef .tc main_v4) = Cert.Model.row128 (m ((c : Thread nD τ).loc main_arg4)) :=
  (Entry01.edge_brow_at0 m ρ c).trans (row128_eq (F := Ideal) (m ((c : Thread nD τ).loc main_arg4)))
theorem brow1 : W6 m ρ c (Proc.devRef .tc main_v12) = Cert.Model.row128 (m ((c : Thread nD τ).loc main_arg6)) :=
  (Entry01.brow_at1 m ρ c).trans (row128_eq (F := Ideal) (m ((c : Thread nD τ).loc main_arg6)))
theorem brow2 : W11 m ρ c (Proc.devRef .tc main_v20) = Cert.Model.row128 (m ((c : Thread nD τ).loc main_arg6)) :=
  (Entry23.brow_at2 m ρ c).trans (row128_eq (F := Ideal) (m ((c : Thread nD τ).loc main_arg6)))
theorem brow3 : W16 m ρ c (Proc.devRef .tc main_v28) = Cert.Model.row128 (m ((c : Thread nD τ).loc main_arg6)) :=
  (Entry23.brow_at3 m ρ c).trans (row128_eq (F := Ideal) (m ((c : Thread nD τ).loc main_arg6)))
theorem b1row3 : W16 m ρ c (Proc.devRef .tc main_v29) = Cert.Model.row32 (m ((c : Thread nD τ).loc main_arg8)) :=
  (Entry23.b1row_at3 m ρ c).trans (row32_eq (F := Ideal) (m ((c : Thread nD τ).loc main_arg8)))
theorem b2row3 : W16 m ρ c (Proc.devRef .tc main_v30) = Cert.Model.row16 (m ((c : Thread nD τ).loc main_arg10)) :=
  (Entry23.b2row_at3 m ρ c).trans (row16_eq (F := Ideal) (m ((c : Thread nD τ).loc main_arg10)))

/-! ## The four outputs in turn -/

/-- The projected edge features. -/
theorem edges : W2 m ρ c (Proc.devRef .tc main_v5) = (Cert.Model.edgeLin (m ((c : Thread nD τ).loc main_arg2)) (m ((c : Thread nD τ).loc main_arg3)) (Cert.Model.row128 (m ((c : Thread nD τ).loc main_arg4)))) := by
  refine (W2_arr m ρ c 3).trans ((Region0.value (V1 m ρ) c).trans ?_)
  show Cert.Model.edgeLin (W1 m ρ c (Proc.devRef .tc main_arg2)) (W1 m ρ c (Proc.devRef .tc main_arg3)) (W1 m ρ c (Proc.devRef .tc main_v4)) = _
  rw [Entry01.edge_attr_at0, Entry01.edge_w_at0, brow0]

variable (hpre : Cert.Pre_KernelIdeal (hPre_finite_inputs := Cert.Pre_finite_inputs.Gen.facts) m)
include hpre

/-- The node features after the first layer. -/
theorem feats1 : W7 m ρ c (Proc.devRef .tc main_v13) = (Cert.Model.reluN (Cert.Model.layer (m ((c : Thread nD τ).loc main_arg0)) (m ((c : Thread nD τ).loc main_arg1)) (Cert.Model.edgeLin (m ((c : Thread nD τ).loc main_arg2)) (m ((c : Thread nD τ).loc main_arg3)) (Cert.Model.row128 (m ((c : Thread nD τ).loc main_arg4)))) (m ((c : Thread nD τ).loc main_arg5)) (Cert.Model.row128 (m ((c : Thread nD τ).loc main_arg6))))) := by
  refine (W7_arr m ρ c 4).trans ((Region1.value (V6 m ρ) c).trans ?_)
  show Cert.Model.reluN (Cert.Model.nodeLin (W6 m ρ c (Proc.devRef .tc main_arg0)) (W6 m ρ c (Proc.devRef .tc main_v11))
    (W6 m ρ c (Proc.devRef .tc main_arg5)) (W6 m ρ c (Proc.devRef .tc main_v12))) = _
  rw [Entry01.x_at1, Entry01.aggr_at1, Entry01.w_at1, brow1, edges, Cert.TakeMask.take_of_pre m hpre c]
  rfl

/-- The node features after the second layer. -/
theorem feats2 : W12 m ρ c (Proc.devRef .tc main_v21) = (Cert.Model.reluN (Cert.Model.layer (Cert.Model.reluN (Cert.Model.layer (m ((c : Thread nD τ).loc main_arg0)) (m ((c : Thread nD τ).loc main_arg1)) (Cert.Model.edgeLin (m ((c : Thread nD τ).loc main_arg2)) (m ((c : Thread nD τ).loc main_arg3)) (Cert.Model.row128 (m ((c : Thread nD τ).loc main_arg4)))) (m ((c : Thread nD τ).loc main_arg5)) (Cert.Model.row128 (m ((c : Thread nD τ).loc main_arg6))))) (m ((c : Thread nD τ).loc main_arg1)) (Cert.Model.edgeLin (m ((c : Thread nD τ).loc main_arg2)) (m ((c : Thread nD τ).loc main_arg3)) (Cert.Model.row128 (m ((c : Thread nD τ).loc main_arg4)))) (m ((c : Thread nD τ).loc main_arg5)) (Cert.Model.row128 (m ((c : Thread nD τ).loc main_arg6))))) := by
  refine (W12_arr m ρ c 4).trans ((Region2.value (V11 m ρ) c).trans ?_)
  show Cert.Model.reluN (Cert.Model.nodeLin (W11 m ρ c (Proc.devRef .tc main_v13)) (W11 m ρ c (Proc.devRef .tc main_v19))
    (W11 m ρ c (Proc.devRef .tc main_arg5)) (W11 m ρ c (Proc.devRef .tc main_v20))) = _
  rw [Entry23.x_at2, Entry23.aggr_at2, Entry23.w_at2, brow2, feats1 m ρ c hpre, edges, Cert.TakeMask.take_of_pre m hpre c]
  rfl

/-- The program's result. -/
theorem result : W17 m ρ c (Proc.devRef .tc main_v31)
    = Cert.Model.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W17_arr m ρ c 8).trans ((Region3.value (V16 m ρ) c).trans ?_)
  show Cert.Model.classify (Cert.Model.nodeLin (W16 m ρ c (Proc.devRef .tc main_v21)) (W16 m ρ c (Proc.devRef .tc main_v27))
    (W16 m ρ c (Proc.devRef .tc main_arg5)) (W16 m ρ c (Proc.devRef .tc main_v28)))
    (W16 m ρ c (Proc.devRef .tc main_arg7)) (W16 m ρ c (Proc.devRef .tc main_v29))
    (W16 m ρ c (Proc.devRef .tc main_arg9)) (W16 m ρ c (Proc.devRef .tc main_v30)) = _
  rw [Entry23.x_at3, Entry23.aggr_at3, Entry23.w_at3, brow3, Entry23.w1_at3, b1row3, Entry23.w2_at3, b2row3,
    feats2 m ρ c hpre, edges, Cert.TakeMask.take_of_pre m hpre c]
  rfl

end Cert.KernelIdeal.KernelValue

end
-- ==== Proof.RefModel.lean ====
/-
  The reference program's result, as its run states it, is the network of Model.lean applied to the
  program's eleven arguments: the run's term is that composition of host operations written out.
-/
import proofs.«416361_j39393440039361_2_alg».proof.Proof.Gen.ReferenceIdeal.Run
import proofs.«416361_j39393440039361_2_alg».proof.Proof.Model

set_option maxRecDepth 16384

noncomputable section

namespace Cert.RefModel

open Idealize.ShloMosaic Idealize.ShloMosaic.TcCoe Idealize.SL.Sem
open Cert.ReferenceIdeal Cert.ReferenceIdeal.Gen

variable {F : FTy → Type} [FloatOps F]

set_option maxHeartbeats 4000000 in
/-- The run's result term is the network. -/
theorem res_eq (m : (ℓ : Loc nD τ sig) → Buf (Elt F) ℓ) (c : Dev nD) :
    Cert.ReferenceIdeal.Value.res_main_v69 m c
      = Cert.Model.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v69 Cert.Model.net Cert.Model.classify Cert.Model.layer Cert.Model.nodeLin Cert.Model.reluN
    Cert.Model.aggregate Cert.Model.sumMsgs Cert.Model.takeRows Cert.Model.col Cert.Model.wrap Cert.Model.srcRow Cert.Model.dstRow
    Cert.Model.edgeLin Cert.Model.row128 Cert.Model.row32 Cert.Model.row16
  rfl

end Cert.RefModel

end
-- ==== Proof.lean ====
/-
  The claim for a three-layer graph network with a two-stage classifier: the kernel program (four
  tiled launches — the edge projection, two node updates, and the last node update fused with the
  classifier — with the row lookups, relu and per-target sums between them as host lines) against the
  plain reference.

  Over the exact extended reals both programs compute the SAME terms in the SAME order: a tiled
  launch writes, row block by row block, exactly the rows of the whole-array product plus bias that the
  reference writes at once; a change of float format is the identity; a product accumulated from zero
  is the plain sum of products. No arithmetic law is needed, so finiteness of the float inputs is
  never used. The integer side condition is: the kernel program's row lookup fills a row whose
  (wrapped) source index is outside 0 … 49999, the reference's lookup does not; with every source index
  in [-50000, 50000) the wrapped index is always inside, and the two lookups agree.

  The three frames are the launch certificates as they come (the reference's is its run with the
  result dropped); the idealization has an empty ledger.
-/
import proofs.«416361_j39393440039361_2_alg».proof.Defs
import proofs.«416361_j39393440039361_2_alg».proof.Proof.Gen.Kernel
import proofs.«416361_j39393440039361_2_alg».proof.Proof.Gen.Kernel.Frame
import proofs.«416361_j39393440039361_2_alg».proof.Proof.Gen.KernelIdeal
import proofs.«416361_j39393440039361_2_alg».proof.Proof.Gen.KernelIdeal.Frame
import proofs.«416361_j39393440039361_2_alg».proof.Proof.Gen.ReferenceIdeal
import proofs.«416361_j39393440039361_2_alg».proof.Proof.Gen.ReferenceIdeal.Run
import proofs.«416361_j39393440039361_2_alg».proof.Proof.Gen.Pre_finite_inputs
import proofs.«416361_j39393440039361_2_alg».proof.Proof.KernelRun
import proofs.«416361_j39393440039361_2_alg».proof.Proof.KernelValue
import proofs.«416361_j39393440039361_2_alg».proof.Proof.RefModel
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the network of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KernelValue.result m ρ c hpre), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefModel.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
